-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x4 : Shape := ⟨2, ![524288, 4]⟩
abbrev S524288 : Shape := ⟨1, ![524288]⟩
abbrev S4x64 : Shape := ⟨2, ![4, 64]⟩
abbrev S64 : Shape := ⟨1, ![64]⟩
abbrev S64x512 : Shape := ⟨2, ![64, 512]⟩
abbrev S512 : Shape := ⟨1, ![512]⟩
abbrev S_ : Shape := ⟨0, ![]⟩

class Facts : Prop where
  bcast_S_S524288x4 : S_.BroadcastsInDim S524288x4 (![] : Fin 0 → Fin S524288x4.rank)
  reducesTo_S524288x4_S_d0_1 : S524288x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S524288x4 .f32) (main_arg1 : IVec S524288 32) (main_arg2 : FVec F S4x64 .f32) (main_arg3 : FVec F S64 .f32) (main_arg4 : FVec F S64x512 .f32) (main_arg5 : FVec F S512 .f32) : IVec S_ 1 :=
  let main_v0 : FVec F S524288x4 .f32 := Host.absf main_arg0
  let main_cst : FVec F S_ .f32 := constant S_ .f32 0x7F800000#32
  let main_v1 : FVec F S524288x4 .f32 := broadcastInDim S524288x4 ![] bcast_S_S524288x4 main_cst
  let main_v2 : IVec S524288x4 1 := cmpf .olt main_v0 main_v1
  let main_c : IVec S_ 1 := constantI S_ 1 1#1
  let main_v3 : IVec S_ 1 := (fun x v => Host.reduce IntOp.andi x v reducesTo_S524288x4_S_d0_1 h_S_) main_v2 main_c
  let main_v4 : FVec F S4x64 .f32 := Host.absf main_arg2
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x512 .f32 := Host.absf main_arg4
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg5 main_v13 main_v16
-- ==== Kernel.lean ====
abbrev S524288x4 : Shape := ⟨2, ![524288, 4]⟩
abbrev S524288 : Shape := ⟨1, ![524288]⟩
abbrev S4x64 : Shape := ⟨2, ![4, 64]⟩
abbrev S64 : Shape := ⟨1, ![64]⟩
abbrev S64x512 : Shape := ⟨2, ![64, 512]⟩
abbrev S512 : Shape := ⟨1, ![512]⟩
abbrev S1x64 : Shape := ⟨2, ![1, 64]⟩
abbrev S1x512 : Shape := ⟨2, ![1, 512]⟩
abbrev S128x1x4096 : Shape := ⟨3, ![128, 1, 4096]⟩
abbrev S2x64x512 : Shape := ⟨3, ![2, 64, 512]⟩
abbrev S2x64x1 : Shape := ⟨3, ![2, 64, 1]⟩
abbrev S4096x4 : Shape := ⟨2, ![4096, 4]⟩
abbrev S1x1x4096 : Shape := ⟨3, ![1, 1, 4096]⟩
abbrev S1x64x512 : Shape := ⟨3, ![1, 64, 512]⟩
abbrev S1x64x1 : Shape := ⟨3, ![1, 64, 1]⟩
abbrev S64x1 : Shape := ⟨2, ![64, 1]⟩
abbrev S4096x1 : Shape := ⟨2, ![4096, 1]⟩
abbrev S4096x64 : Shape := ⟨2, ![4096, 64]⟩
abbrev S4096x512 : Shape := ⟨2, ![4096, 512]⟩
abbrev S1x4096 : Shape := ⟨2, ![1, 4096]⟩
abbrev S64x4096 : Shape := ⟨2, ![64, 4096]⟩
abbrev S_ : Shape := ⟨0, ![]⟩

abbrev nBuf : Space → Nat
  | .hbm => 20
  | .vmem => 14
  | .smem => 0
  | _ => 0

abbrev bufTy : (tb : Table) → Fin (tcTables nBuf tb) → BufTy
  | .hbm, ⟨0, _⟩ => ⟨S524288x4, .f32⟩
  | .hbm, ⟨1, _⟩ => ⟨S524288, .i32⟩
  | .hbm, ⟨2, _⟩ => ⟨S4x64, .f32⟩
  | .hbm, ⟨3, _⟩ => ⟨S64, .f32⟩
  | .hbm, ⟨4, _⟩ => ⟨S64x512, .f32⟩
  | .hbm, ⟨5, _⟩ => ⟨S512, .f32⟩
  | .hbm, ⟨6, _⟩ => ⟨S1x64, .f32⟩
  | .hbm, ⟨7, _⟩ => ⟨S1x512, .f32⟩
  | .hbm, ⟨8, _⟩ => ⟨S128x1x4096, .i32⟩
  | .hbm, ⟨9, _⟩ => ⟨S2x64x512, .f32⟩
  | .hbm, ⟨10, _⟩ => ⟨S2x64x1, .f32⟩
  | .hbm, ⟨11, _⟩ => ⟨S_, .f32⟩
  | .hbm, ⟨12, _⟩ => ⟨S64x512, .f32⟩
  | .hbm, ⟨13, _⟩ => ⟨S_, .f32⟩
  | .hbm, ⟨14, _⟩ => ⟨S64x1, .f32⟩
  | .hbm, ⟨15, _⟩ => ⟨S_, .f32⟩
  | .hbm, ⟨16, _⟩ => ⟨S64x1, .f32⟩
  | .hbm, ⟨17, _⟩ => ⟨S64x1, .f32⟩
  | .hbm, ⟨18, _⟩ => ⟨S64x512, .f32⟩
  | .hbm, ⟨19, _⟩ => ⟨S64x512, .f32⟩
  | .local _ .vmem, ⟨0, _⟩ => ⟨S4096x4, .f32⟩
  | .local _ .vmem, ⟨1, _⟩ => ⟨S4096x4, .f32⟩
  | .local _ .vmem, ⟨2, _⟩ => ⟨S1x1x4096, .i32⟩
  | .local _ .vmem, ⟨3, _⟩ => ⟨S1x1x4096, .i32⟩
  | .local _ .vmem, ⟨4, _⟩ => ⟨S4x64, .f32⟩
  | .local _ .vmem, ⟨5, _⟩ => ⟨S1x64, .f32⟩
  | .local _ .vmem, ⟨6, _⟩ => ⟨S64x512, .f32⟩
  | .local _ .vmem, ⟨7, _⟩ => ⟨S1x512, .f32⟩
  | .local _ .vmem, ⟨8, _⟩ => ⟨S1x64x512, .f32⟩
  | .local _ .vmem, ⟨9, _⟩ => ⟨S1x64x512, .f32⟩
  | .local _ .vmem, ⟨10, _⟩ => ⟨S1x64x1, .f32⟩
  | .local _ .vmem, ⟨11, _⟩ => ⟨S1x64x1, .f32⟩
  | .local _ .vmem, ⟨12, _⟩ => ⟨S64x512, .f32⟩
  | .local _ .vmem, ⟨13, _⟩ => ⟨S64x1, .f32⟩
  | _, _ => ⟨S524288x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v65 : BitVec 1 := Scalar.cmpi .eq arg1 c63_i32
  let v66 : BitVec 32 := Scalar.extui v65
  let c0_i32_25 : BitVec 32 := 0#32
  let v67 : BitVec 1 := Scalar.cmpi .ne v66 c0_i32_25
  v67

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S64_S1x64 : S64.ShapeCasts S1x64
  shapeCasts_S512_S1x512 : S512.ShapeCasts S1x512
  shapeCasts_S524288_S128x1x4096 : S524288.ShapeCasts S128x1x4096
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S4096x4_S4096x4_0_0 : ∀ a, (![0, 0] : Fin 2 → Nat) a + S4096x4.size a ≤ S4096x4.size a
  h_S4096x4 : 0 < S4096x4.numel
  inb_S4x64_S4x64_0_0 : ∀ a, (![0, 0] : Fin 2 → Nat) a + S4x64.size a ≤ S4x64.size a
  h_S4x64 : 0 < S4x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  slices_S4096x4_o0_0_S4096x1 : S4096x4.Slices ![0, 0] S4096x1
  slices_S4x64_o0_0_S1x64 : S4x64.Slices ![0, 0] S1x64
  broadcasts_S4096x1_S4096x64 : S4096x1.Broadcasts S4096x64
  broadcasts_S1x64_S4096x64 : S1x64.Broadcasts S4096x64
  slices_S4096x4_o0_1_S4096x1 : S4096x4.Slices ![0, 1] S4096x1
  slices_S4x64_o1_0_S1x64 : S4x64.Slices ![1, 0] S1x64
  slices_S4096x4_o0_2_S4096x1 : S4096x4.Slices ![0, 2] S4096x1
  slices_S4x64_o2_0_S1x64 : S4x64.Slices ![2, 0] S1x64
  slices_S4096x4_o0_3_S4096x1 : S4096x4.Slices ![0, 3] S4096x1
  slices_S4x64_o3_0_S1x64 : S4x64.Slices ![3, 0] S1x64
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  iota_S64x1_d0_w32 : S64x1.Iotas .tc 32 [0]
  broadcasts_S1x4096_S64x4096 : S1x4096.Broadcasts S64x4096
  broadcasts_S64x1_S64x4096 : S64x1.Broadcasts S64x4096
  natLt_1_32 : 1 < 32
  reduces_S64x4096_S64 : S64x4096.Reduces [1] S64
  shapeCasts_S64_S64x1 : S64.ShapeCasts S64x1
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  reducesTo_S2x64x512_S64x512_d0 : S2x64x512.ReducesTo [0] S64x512
  h_S_ : 0 < S_.numel
  reducesTo_S2x64x1_S64x1_d0 : S2x64x1.ReducesTo [0] S64x1
  bcast_S_S64x1 : S_.BroadcastsInDim S64x1 (![] : Fin 0 → Fin S64x1.rank)
  bcast_S64x1_S64x512_0_1 : S64x1.BroadcastsInDim S64x512 (![0, 1] : Fin 2 → Fin S64x512.rank)
  dot_S4096x64_S64x512_S4096x512_1_0_0_1_n_n_wf : DotDims.WF S4096x64 S64x512 S4096x512 [1] [0] [0] [1] [] []
  dot_S64x4096_S4096x512_S64x512_1_0_0_1_n_n_wf : DotDims.WF S64x4096 S4096x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4.size a ≤ S524288x4.size a
  hwx0_0 : ∀ i : grid0.Coords, EltTy.bits .f32 = 32 ∨ (Rect.block (s := S524288x4) S4096x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S128x1x4096.size a
  hwx0_1 : ∀ i : grid0.Coords, EltTy.bits .i32 = 32 ∨ (Rect.block (s := S128x1x4096) S1x1x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S64x512.size a
  hwx0_4 : ∀ i : grid0.Coords, EltTy.bits .f32 = 32 ∨ (Rect.block (s := S64x512) S64x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x512.size a ≤ S2x64x512.size a
  hwx0_6 : ∀ i : grid0.Coords, EltTy.bits .f32 = 32 ∨ (Rect.block (s := S2x64x512) S1x64x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x1.size a ≤ S2x64x1.size a
  hwx0_7 : ∀ i : grid0.Coords, EltTy.bits .f32 = 32 ∨ (Rect.block (s := S2x64x1) S1x64x1.size (cc0_transform_7 i) (hinb0_7 i)).WholeWords (EltTy.packing .f32)

variable [Facts₀]

def dot_S4096x64_S64x512_S4096x512_1_0_0_1_n_n : DotDims S4096x64 S64x512 S4096x512 where
  lhsContracting := [1]
  rhsContracting := [0]
  lhsNonContracting := [0]
  rhsNonContracting := [1]
  lhsBatch := []
  rhsBatch := []
  wf := dot_S4096x64_S64x512_S4096x512_1_0_0_1_n_n_wf
def dot_S64x4096_S4096x512_S64x512_1_0_0_1_n_n : DotDims S64x4096 S4096x512 S64x512 where
  lhsContracting := [1]
  rhsContracting := [0]
  lhsNonContracting := [0]
  rhsNonContracting := [1]
  lhsBatch := []
  rhsBatch := []
  wf := dot_S64x4096_S4096x512_S64x512_1_0_0_1_n_n_wf

abbrev win0_0 : Pipeline.Window sig grid0 :=
  Pipeline.Window.ofSpec (Memref.whole main_arg0) S4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S1x64x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S1x64x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S524288x4 : Shape := ⟨2, ![524288, 4]⟩
abbrev S524288 : Shape := ⟨1, ![524288]⟩
abbrev S4x64 : Shape := ⟨2, ![4, 64]⟩
abbrev S64 : Shape := ⟨1, ![64]⟩
abbrev S64x512 : Shape := ⟨2, ![64, 512]⟩
abbrev S512 : Shape := ⟨1, ![512]⟩
abbrev S524288x64 : Shape := ⟨2, ![524288, 64]⟩
abbrev S1x64 : Shape := ⟨2, ![1, 64]⟩
abbrev S_ : Shape := ⟨0, ![]⟩
abbrev S524288x512 : Shape := ⟨2, ![524288, 512]⟩
abbrev S1x512 : Shape := ⟨2, ![1, 512]⟩
abbrev S524288x1 : Shape := ⟨2, ![524288, 1]⟩
abbrev S64x1 : Shape := ⟨2, ![64, 1]⟩

abbrev nBuf : Space → Nat
  | .hbm => 36
  | .vmem => 0
  | .smem => 0
  | _ => 0

abbrev bufTy : (tb : Table) → Fin (tcTables nBuf tb) → BufTy
  | .hbm, ⟨0, _⟩ => ⟨S524288x4, .f32⟩
  | .hbm, ⟨1, _⟩ => ⟨S524288, .i32⟩
  | .hbm, ⟨2, _⟩ => ⟨S4x64, .f32⟩
  | .hbm, ⟨3, _⟩ => ⟨S64, .f32⟩
  | .hbm, ⟨4, _⟩ => ⟨S64x512, .f32⟩
  | .hbm, ⟨5, _⟩ => ⟨S512, .f32⟩
  | .hbm, ⟨6, _⟩ => ⟨S524288x64, .f32⟩
  | .hbm, ⟨7, _⟩ => ⟨S1x64, .f32⟩
  | .hbm, ⟨8, _⟩ => ⟨S524288x64, .f32⟩
  | .hbm, ⟨9, _⟩ => ⟨S524288x64, .f32⟩
  | .hbm, ⟨10, _⟩ => ⟨S_, .f32⟩
  | .hbm, ⟨11, _⟩ => ⟨S524288x64, .f32⟩
  | .hbm, ⟨12, _⟩ => ⟨S524288x64, .f32⟩
  | .hbm, ⟨13, _⟩ => ⟨S524288x512, .f32⟩
  | .hbm, ⟨14, _⟩ => ⟨S1x512, .f32⟩
  | .hbm, ⟨15, _⟩ => ⟨S524288x512, .f32⟩
  | .hbm, ⟨16, _⟩ => ⟨S524288x512, .f32⟩
  | .hbm, ⟨17, _⟩ => ⟨S_, .f32⟩
  | .hbm, ⟨18, _⟩ => ⟨S524288x512, .f32⟩
  | .hbm, ⟨19, _⟩ => ⟨S524288x512, .f32⟩
  | .hbm, ⟨20, _⟩ => ⟨S_, .f32⟩
  | .hbm, ⟨21, _⟩ => ⟨S64x512, .f32⟩
  | .hbm, ⟨22, _⟩ => ⟨S524288x1, .i32⟩
  | .hbm, ⟨23, _⟩ => ⟨S64x512, .f32⟩
  | .hbm, ⟨24, _⟩ => ⟨S_, .f32⟩
  | .hbm, ⟨25, _⟩ => ⟨S524288, .f32⟩
  | .hbm, ⟨26, _⟩ => ⟨S_, .f32⟩
  | .hbm, ⟨27, _⟩ => ⟨S64, .f32⟩
  | .hbm, ⟨28, _⟩ => ⟨S524288x1, .i32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64x1, .f32⟩
  | .hbm, ⟨34, _⟩ => ⟨S64x512, .f32⟩
  | .hbm, ⟨35, _⟩ => ⟨S64x512, .f32⟩
  | _, _ => ⟨S524288x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call1_cst : Ref sig .tc := ⟨.hbm, 17, rfl⟩
abbrev main_call1_v0 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S524288x64 : S_.BroadcastsInDim S524288x64 (![] : Fin 0 → Fin S524288x64.rank)
  bcast_S512_S1x512_1 : S512.BroadcastsInDim S1x512 (![1] : Fin 1 → Fin S1x512.rank)
  bcast_S1x512_S524288x512_0_1 : S1x512.BroadcastsInDim S524288x512 (![0, 1] : Fin 2 → Fin S524288x512.rank)
  bcast_S_S524288x512 : S_.BroadcastsInDim S524288x512 (![] : Fin 0 → Fin S524288x512.rank)
  bcast_S_S64x512 : S_.BroadcastsInDim S64x512 (![] : Fin 0 → Fin S64x512.rank)
  bcast_S524288_S524288x1_0 : S524288.BroadcastsInDim S524288x1 (![0] : Fin 1 → Fin S524288x1.rank)
  bcast_S_S524288 : S_.BroadcastsInDim S524288 (![] : Fin 0 → Fin S524288.rank)
  bcast_S_S64 : S_.BroadcastsInDim S64 (![] : Fin 0 → Fin S64.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  dot_S524288x4_S4x64_S524288x64_1_0_0_1_n_n_wf : DotDims.WF S524288x4 S4x64 S524288x64 [1] [0] [0] [1] [] []
  dot_S524288x64_S64x512_S524288x512_1_0_0_1_n_n_wf : DotDims.WF S524288x64 S64x512 S524288x512 [1] [0] [0] [1] [] []
  scatter_S64x512_S524288x1_S524288x512_1_0_0_1_wf : ScatterDims.WF S64x512 S524288x1 S524288x512 [1] [0] [0] 1
  scatter_S64_S524288x1_S524288_n_0_0_1_wf : ScatterDims.WF S64 S524288x1 S524288 [] [0] [0] 1

variable [Facts₀]

def dot_S524288x4_S4x64_S524288x64_1_0_0_1_n_n : DotDims S524288x4 S4x64 S524288x64 where
  lhsContracting := [1]
  rhsContracting := [0]
  lhsNonContracting := [0]
  rhsNonContracting := [1]
  lhsBatch := []
  rhsBatch := []
  wf := dot_S524288x4_S4x64_S524288x64_1_0_0_1_n_n_wf
def dot_S524288x64_S64x512_S524288x512_1_0_0_1_n_n : DotDims S524288x64 S64x512 S524288x512 where
  lhsContracting := [1]
  rhsContracting := [0]
  lhsNonContracting := [0]
  rhsNonContracting := [1]
  lhsBatch := []
  rhsBatch := []
  wf := dot_S524288x64_S64x512_S524288x512_1_0_0_1_n_n_wf
def scatter_S64x512_S524288x1_S524288x512_1_0_0_1 : ScatterDims S64x512 S524288x1 S524288x512 where
  updateWindowDims := [1]
  insertedWindowDims := [0]
  scatterDimsToOperandDims := [0]
  indexVectorDim := 1
  wf := scatter_S64x512_S524288x1_S524288x512_1_0_0_1_wf
def scatter_S64_S524288x1_S524288_n_0_0_1 : ScatterDims S64 S524288x1 S524288 where
  updateWindowDims := []
  insertedWindowDims := [0]
  scatterDimsToOperandDims := [0]
  indexVectorDim := 1
  wf := scatter_S64_S524288x1_S524288_n_0_0_1_wf

class Facts : Prop extends Facts₀ where

variable [Facts]
-- ==== Proof.KPieces.lean ====
/-
  What each case of the kernel body leaves behind, as values.

  The body has three cases. At the first point of a run of 64 (case A) it resets the two accumulators to zero and then
  adds the point's block sums and block counts to them; at the middle points (case B) it adds them to what the point
  before left; at the last point (case C) it does the same and then copies both accumulators, with a unit axis put in
  front, into the two output blocks. The frame run finds, per case, the list of stores each buffer ends with; here each
  list is read back as the one value it amounts to, for any float instance.
-/
import proofs.«411606_j73160472920346_4_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

/-- Zero offsets, as the constant function. -/
theorem hz2 : (![0, 0] : Fin 2 → Nat) = fun _ => 0 := funext fun a => by fin_cases a <;> rfl
/-- Zero offsets at rank three. -/
theorem hz3 : (![0, 0, 0] : Fin 3 → Nat) = fun _ => 0 := funext fun a => by fin_cases a <;> rfl

variable (c : Dev nD) (i : grid0.Coords)
  (arg2 : Memref sig .tc .vmem S4096x4 .f32) (harg2 : arg2.IsWhole) (arg3 : Memref sig .tc .vmem S1x1x4096 .i32) (harg3 : arg3.IsWhole)
  (arg4 : Memref sig .tc .vmem S4x64 .f32) (harg4 : arg4.IsWhole) (arg5 : Memref sig .tc .vmem S1x64 .f32) (harg5 : arg5.IsWhole)
  (arg6 : Memref sig .tc .vmem S64x512 .f32) (harg6 : arg6.IsWhole) (arg7 : Memref sig .tc .vmem S1x512 .f32) (harg7 : arg7.IsWhole)
  (arg8 : Memref sig .tc .vmem S1x64x512 .f32) (harg8 : arg8.IsWhole) (arg9 : Memref sig .tc .vmem S1x64x1 .f32) (harg9 : arg9.IsWhole)
  (arg10 : Memref sig .tc .vmem S64x512 .f32) (harg10 : arg10.IsWhole) (arg11 : Memref sig .tc .vmem S64x1 .f32) (harg11 : arg11.IsWhole)
  (x0 : Vec F S4096x4 .f32) (x1 : Vec F S1x1x4096 .i32) (x2 : Vec F S4x64 .f32) (x3 : Vec F S1x64 .f32) (x4 : Vec F S64x512 .f32) (x5 : Vec F S1x512 .f32)

/-- Case A, the accumulator of sums: the reset block, then the point's block sums added to it. -/
theorem sA0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 hc0 hc1 x0 x1 x2 x3 x4 x5
      = k0_pay2 (k0_pay8 x0 x2 x3 x4 x5) (Scalar.ofBits .f32 0x00000000#32) x1 (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S64x512) hz2, View.readCov_unit_zero (S := S64x512) _ hz2]
  simp only [View.readAt_eq_ld, harg2.read_unread, harg3.read_unread, harg4.read_unread, harg5.read_unread, harg6.read_unread, harg7.read_unread, harg10.read_unread, harg11.read_unread,
    View.ld_unit_zero (S := S4096x4) hz2, View.ld_unit_zero (S := S1x1x4096) hz3, View.ld_unit_zero (S := S4x64) hz2, View.ld_unit_zero (S := S1x64) hz2,
    View.ld_unit_zero (S := S64x512) hz2, View.ld_unit_zero (S := S1x512) hz2, View.ld_unit_zero (S := S64x1) hz2]

/-- Case A, the accumulator of counts: the reset column, then the point's block counts added to it. -/
theorem sA1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 hc0 hc1 x0 x1 x2 x3 x4 x5
      = k0_pay3 x1 (k0_pay7 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S64x1) hz2, View.readCov_unit_zero (S := S64x1) _ hz2]
  simp only [View.readAt_eq_ld, harg2.read_unread, harg3.read_unread, harg4.read_unread, harg5.read_unread, harg6.read_unread, harg7.read_unread, harg10.read_unread, harg11.read_unread,
    View.ld_unit_zero (S := S4096x4) hz2, View.ld_unit_zero (S := S1x1x4096) hz3, View.ld_unit_zero (S := S4x64) hz2, View.ld_unit_zero (S := S1x64) hz2,
    View.ld_unit_zero (S := S64x512) hz2, View.ld_unit_zero (S := S1x512) hz2, View.ld_unit_zero (S := S64x1) hz2]

variable (xs0 : Vec F S64x512 .f32) (xs1 : Vec F S64x1 .f32)

/-- Case B, the accumulator of sums: what the point before left, plus the point's block sums. -/
theorem sB0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1
      = k0_pay2 (k0_pay8 x0 x2 x3 x4 x5) (Scalar.ofBits .f32 0x00000000#32) x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg10.read_unread, harg11.read_unread,
    View.ld_unit_zero (S := S4096x4) hz2, View.ld_unit_zero (S := S1x1x4096) hz3, View.ld_unit_zero (S := S4x64) hz2, View.ld_unit_zero (S := S1x64) hz2,
    View.ld_unit_zero (S := S64x512) hz2, View.ld_unit_zero (S := S1x512) hz2, View.ld_unit_zero (S := S64x1) hz2]

/-- Case B, the accumulator of counts: what the point before left, plus the point's block counts. -/
theorem sB1 (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1
      = k0_pay3 x1 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg10.read_unread, harg11.read_unread,
    View.ld_unit_zero (S := S4096x4) hz2, View.ld_unit_zero (S := S1x1x4096) hz3, View.ld_unit_zero (S := S4x64) hz2, View.ld_unit_zero (S := S1x64) hz2,
    View.ld_unit_zero (S := S64x512) hz2, View.ld_unit_zero (S := S1x512) hz2, View.ld_unit_zero (S := S64x1) hz2]

/-- Case C, the accumulator of sums: as in case B. -/
theorem sC0 (hc0 : ¬cond0_0 i) (hc1 : cond0_1 i) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1
      = k0_pay2 (k0_pay8 x0 x2 x3 x4 x5) (Scalar.ofBits .f32 0x00000000#32) x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg10.read_unread, harg11.read_unread,
    View.ld_unit_zero (S := S4096x4) hz2, View.ld_unit_zero (S := S1x1x4096) hz3, View.ld_unit_zero (S := S4x64) hz2, View.ld_unit_zero (S := S1x64) hz2,
    View.ld_unit_zero (S := S64x512) hz2, View.ld_unit_zero (S := S1x512) hz2, View.ld_unit_zero (S := S64x1) hz2]

/-- Case C, the accumulator of counts: as in case B. -/
theorem sC1 (hc0 : ¬cond0_0 i) (hc1 : cond0_1 i) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1
      = k0_pay3 x1 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg10.read_unread, harg11.read_unread,
    View.ld_unit_zero (S := S4096x4) hz2, View.ld_unit_zero (S := S1x1x4096) hz3, View.ld_unit_zero (S := S4x64) hz2, View.ld_unit_zero (S := S1x64) hz2,
    View.ld_unit_zero (S := S64x512) hz2, View.ld_unit_zero (S := S1x512) hz2, View.ld_unit_zero (S := S64x1) hz2]

/-- Case C, the output block of sums: the accumulator of sums as the point leaves it, a unit axis in front. -/
theorem oC6 (hc0 : ¬cond0_0 i) (hc1 : cond0_1 i) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1
      = k0_pay4 (k0_pay2 (k0_pay8 x0 x2 x3 x4 x5) (Scalar.ofBits .f32 0x00000000#32) x1 xs0) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz3]
  simp only [View.readCov_unit_zero (S := S64x512) _ hz2, View.readCov_unit_zero (S := S64x1) _ hz2, View.readAt_eq_ld, harg2.read_unread, harg3.read_unread, harg4.read_unread, harg5.read_unread, harg6.read_unread, harg7.read_unread, harg10.read_unread, harg11.read_unread,
    View.ld_unit_zero (S := S4096x4) hz2, View.ld_unit_zero (S := S1x1x4096) hz3, View.ld_unit_zero (S := S4x64) hz2, View.ld_unit_zero (S := S1x64) hz2,
    View.ld_unit_zero (S := S64x512) hz2, View.ld_unit_zero (S := S1x512) hz2, View.ld_unit_zero (S := S64x1) hz2]

/-- Case C, the output block of counts: the accumulator of counts as the point leaves it, a unit axis in front. -/
theorem oC7 (hc0 : ¬cond0_0 i) (hc1 : cond0_1 i) :
    out0_C_7 c i arg2 harg2 arg3 harg3 arg4 harg4 arg5 harg5 arg6 harg6 arg7 harg7 arg8 harg8 arg9 harg9 arg10 harg10 arg11 harg11 hc0 hc1 x0 x1 x2 x3 x4 x5 xs0 xs1
      = k0_pay5 (k0_pay3 x1 xs1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz3]
  simp only [View.readCov_unit_zero (S := S64x512) _ hz2, View.readCov_unit_zero (S := S64x1) _ hz2, View.readAt_eq_ld, harg2.read_unread, harg3.read_unread, harg4.read_unread, harg5.read_unread, harg6.read_unread, harg7.read_unread, harg10.read_unread, harg11.read_unread,
    View.ld_unit_zero (S := S4096x4) hz2, View.ld_unit_zero (S := S1x1x4096) hz3, View.ld_unit_zero (S := S4x64) hz2, View.ld_unit_zero (S := S1x64) hz2,
    View.ld_unit_zero (S := S64x512) hz2, View.ld_unit_zero (S := S1x512) hz2, View.ld_unit_zero (S := S64x1) hz2]

end Cert.KernelIdeal.Pieces

end
-- ==== Proof.BlockSums.lean ====
/-
  A sum over 524288 points cut into 128 blocks of 4096 consecutive points, the blocks grouped as two runs of 64:
  the sum of the block sums is the sum over all points.
-/
import Idealize.ShloMosaic.PureOps.Ideal

open scoped BigOperators

noncomputable section

namespace Cert.SegPool

/-- The sum of `g` over block `t`: the 4096 points from `4096 t` on; zero past the last block. -/
def blockOf (g : Fin 524288 → EReal) (t : ℕ) : EReal :=
  if h : t < 128 then ∑ j : Fin 4096, g ⟨t * 4096 + j.val, by omega⟩ else 0

/-- `g` continued by zero to every natural number. -/
private def ext (g : Fin 524288 → EReal) (n : ℕ) : EReal :=
  if h : n < 524288 then g ⟨n, h⟩ else 0

/-- The sum over all points is the sum of the continuation over the first 524288 naturals. -/
private theorem sum_univ_eq_range (g : Fin 524288 → EReal) :
    ∑ n : Fin 524288, g n = ∑ n ∈ Finset.range 524288, ext g n := by
  rw [Finset.sum_range]
  refine Finset.sum_congr rfl (fun i _ => ?_)
  rw [ext, dif_pos i.isLt]

/-- A block sum, for a block in range, is a sum of the continuation over 4096 consecutive naturals. -/
private theorem blockOf_eq (g : Fin 524288 → EReal) (t : ℕ) (ht : t < 128) :
    blockOf g t = ∑ j ∈ Finset.range 4096, ext g (t * 4096 + j) := by
  rw [blockOf, dif_pos ht, Finset.sum_range]
  refine Finset.sum_congr rfl (fun j _ => ?_)
  have hj := j.isLt
  have hlt : t * 4096 + j.val < 524288 := by omega
  rw [ext, dif_pos hlt]

/-- The first `T` blocks of 4096 consecutive naturals tile the first `T * 4096` naturals. -/
private theorem sum_tiles (G : ℕ → EReal) (T : ℕ) :
    ∑ t ∈ Finset.range T, ∑ j ∈ Finset.range 4096, G (t * 4096 + j)
      = ∑ n ∈ Finset.range (T * 4096), G n := by
  induction T with
  | zero => rw [Finset.range_zero, Finset.sum_empty, Finset.sum_empty]
  | succ T ih => rw [Finset.sum_range_succ, ih, Nat.succ_mul, Finset.sum_range_add]

/-- Two runs of 64 blocks each cover every point once. -/
theorem sum_blocks (g : Fin 524288 → EReal) :
    ∑ c : Fin 2, ∑ s ∈ Finset.range 64, blockOf g (64 * c.val + s) = ∑ n : Fin 524288, g n := by
  have h0 : ∑ s ∈ Finset.range 64, blockOf g (64 * (0 : Fin 2).val + s)
      = ∑ s ∈ Finset.range 64, ∑ j ∈ Finset.range 4096, ext g (s * 4096 + j) := by
    refine Finset.sum_congr rfl (fun s hs => ?_)
    have hs' := Finset.mem_range.mp hs
    have e : 64 * (0 : Fin 2).val + s = s := by simp
    rw [e]
    exact blockOf_eq g s (by omega)
  have h1 : ∑ s ∈ Finset.range 64, blockOf g (64 * (1 : Fin 2).val + s)
      = ∑ s ∈ Finset.range 64, ∑ j ∈ Finset.range 4096, ext g ((64 + s) * 4096 + j) := by
    refine Finset.sum_congr rfl (fun s hs => ?_)
    have hs' := Finset.mem_range.mp hs
    have e : 64 * (1 : Fin 2).val + s = 64 + s := by simp
    rw [e]
    exact blockOf_eq g (64 + s) (by omega)
  have hjoin := Finset.sum_range_add (fun t => ∑ j ∈ Finset.range 4096, ext g (t * 4096 + j)) 64 64
  have hN : (64 + 64) * 4096 = 524288 := by norm_num
  rw [Fin.sum_univ_two, h0, h1, sum_univ_eq_range, ← hN, ← sum_tiles (ext g) (64 + 64), hjoin]

end Cert.SegPool

end
-- ==== Proof.Spec.lean ====
/-
  Segment mean pooling of a two-layer perceptron, as one function of the argument arrays over the extended reals.

  A point is a row of four numbers. The first layer sends it to 64 numbers: the product with a 4 by 64 matrix plus a
  bias, each clipped below at zero. The second layer sends those to 512 numbers the same way, with a 64 by 512 matrix.
  Every point carries an integer label; for each label b in [0, 64) and each of the 512 features the pooled value is the
  sum of that feature over the points labelled b, divided by the number of such points, or by one when there are none.
  A point whose label is outside [0, 64) belongs to no segment.

  Also here: the same sums cut into 128 blocks of 4096 consecutive points, which is how a grid of block-wise partial
  sums meets the sum over all points.
-/
import Idealize.ShloMosaic.PureOps.Ideal
import Idealize.ShloMosaic.Lib.ValueIdx
import proofs.«411606_j73160472920346_4_alg».proof.Proof.BlockSums

open scoped BigOperators

noncomputable section

namespace Cert.SegPool

open Idealize.ShloMosaic Idealize.ShloMosaic.ValueIdx

abbrev SPts : Shape := ⟨2, ![524288, 4]⟩
abbrev SSeg : Shape := ⟨1, ![524288]⟩
abbrev SW1 : Shape := ⟨2, ![4, 64]⟩
abbrev SB1 : Shape := ⟨1, ![64]⟩
abbrev SW2 : Shape := ⟨2, ![64, 512]⟩
abbrev SB2 : Shape := ⟨1, ![512]⟩
abbrev SOut : Shape := ⟨2, ![64, 512]⟩

/-- The first layer on one point `p`: feature `k` is `max (Σ_q p q · W1[q, k] + b1 k) 0`. -/
def hidRow (p : Fin 4 → EReal) (W1 : SW1.Idx → EReal) (b1 : Fin 64 → EReal) (k : Fin 64) : EReal :=
  max ((∑ q : Fin 4, p q * W1 (ix2 q k)) + b1 k) 0

/-- The second layer on one point: feature `d` is `max (Σ_k hidRow k · W2[k, d] + b2 d) 0`. -/
def featRow (p : Fin 4 → EReal) (W1 : SW1.Idx → EReal) (b1 : Fin 64 → EReal) (W2 : SW2.Idx → EReal)
    (b2 : Fin 512 → EReal) (d : Fin 512) : EReal :=
  max ((∑ k : Fin 64, hidRow p W1 b1 k * W2 (ix2 k d)) + b2 d) 0

/-- Feature `d` of point `n` of the array of points. -/
def feat (P : SPts.Idx → EReal) (W1 : SW1.Idx → EReal) (b1 : SB1.Idx → EReal) (W2 : SW2.Idx → EReal)
    (b2 : SB2.Idx → EReal) (n : Fin 524288) (d : Fin 512) : EReal :=
  featRow (fun q => P (ix2 n q)) W1 (fun k => b1 (ix1 k)) W2 (fun e => b2 (ix1 e)) d

/-- Point `n` carries label `b`. -/
def inSeg (seg : SSeg.Idx → BitVec 32) (n : Fin 524288) (b : Fin 64) : Prop :=
  seg (ix1 n) = BitVec.ofNat 32 b.val

instance (seg : SSeg.Idx → BitVec 32) (n : Fin 524288) (b : Fin 64) : Decidable (inSeg seg n b) := by
  unfold inSeg; infer_instance

/-- The sum of `g` over the points labelled `b`. -/
def segSum (seg : SSeg.Idx → BitVec 32) (g : Fin 524288 → EReal) (b : Fin 64) : EReal :=
  ∑ n : Fin 524288, if inSeg seg n b then g n else 0

/-- The pooled array: per label and feature, the segment's sum over the larger of its count and one. -/
def pooled (P : SPts.Idx → EReal) (seg : SSeg.Idx → BitVec 32) (W1 : SW1.Idx → EReal) (b1 : SB1.Idx → EReal)
    (W2 : SW2.Idx → EReal) (b2 : SB2.Idx → EReal) : SOut.Idx → EReal := fun i =>
  Ideal.div (segSum seg (fun n => feat P W1 b1 W2 b2 n (i 1)) (i 0)) (max (segSum seg (fun _ => 1) (i 0)) 1)

/-! ## The same sum, block by block -/

/-- Block `t`'s share of a segment's sum. -/
def blockSeg (seg : SSeg.Idx → BitVec 32) (g : Fin 524288 → EReal) (b : Fin 64) (t : ℕ) : EReal :=
  blockOf (fun n => if inSeg seg n b then g n else 0) t

end Cert.SegPool

end
-- ==== Proof.KPayload.lean ====
/-
  What one grid point's arithmetic computes, read at one element over the extended reals.

  A point's block holds 4096 points (`x0`, four numbers each), their labels (`x1`), the two layers' matrices (`x2`, `x4`)
  and their biases as one-row matrices (`x3`, `x5`). The body forms the 4096 by 512 matrix of second-layer
  pre-activations, clips it below at zero, and multiplies it on the left by the 64 by 4096 matrix whose entry (b, j) is
  one when point j carries label b and zero otherwise: entry (b, d) of the product is the sum of feature d over the
  block's points labelled b. The row sums of that 0/1 matrix count the block's points of each label. Both are added to
  what an accumulator held. Here each of these is read at an index; a change of float format is the identity and
  every sum is the exact one, so no step needs finiteness.
-/
import proofs.«411606_j73160472920346_4_alg».proof.Proof.Gen.KernelIdeal.Skeleton
import proofs.«411606_j73160472920346_4_alg».proof.Proof.Spec
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.PointValue

open Idealize.ShloMosaic Idealize.ShloMosaic.ValueIdx Cert.KernelIdeal Cert.KernelIdeal.Gen Cert.SegPool

/-- The zero block an accumulator of sums is reset to. -/
theorem pay6_apply (i : S64x512.Idx) : k0_pay6 (F := Ideal) i = 0 := by
  unfold k0_pay6
  rw [shapeCast_self]
  exact Ideal.ofBits_zero_f32

/-! ## Layout: a column spread along the rows -/

/-- A column `[a, 1]` broadcast to `[a, b]` reads, at `(p, c)`, the column at row `p`. -/
theorem broadcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The second layer's product: 4096 by 64 times 64 by 512, the 64 contracted

Where the product's operand indices sit, axis by axis, and the product read at one element. -/

theorem mmA_lhs_0 (i : S4096x512.Idx) (q : dot_S4096x64_S64x512_S4096x512_1_0_0_1_n_n.contr.Idx) :
    (dot_S4096x64_S64x512_S4096x512_1_0_0_1_n_n.lhsIdx i q 0).val = (i 0).val := by
  unfold DotDims.lhsIdx
  rw [dif_neg (show ¬(0 : Fin S4096x64.rank) ∈ dot_S4096x64_S64x512_S4096x512_1_0_0_1_n_n.lhsBatch by decide), dif_pos (show (0 : Fin S4096x64.rank) ∈ dot_S4096x64_S64x512_S4096x512_1_0_0_1_n_n.lhsNonContracting by decide)]
  rfl
theorem mmA_lhs_1 (i : S4096x512.Idx) (q : dot_S4096x64_S64x512_S4096x512_1_0_0_1_n_n.contr.Idx) :
    (dot_S4096x64_S64x512_S4096x512_1_0_0_1_n_n.lhsIdx i q 1).val = (q ⟨0, by decide⟩).val :=
  dot_S4096x64_S64x512_S4096x512_1_0_0_1_n_n.lhsIdx_val_of_single rfl i q
theorem mmA_rhs_0 (i : S4096x512.Idx) (q : dot_S4096x64_S64x512_S4096x512_1_0_0_1_n_n.contr.Idx) :
    (dot_S4096x64_S64x512_S4096x512_1_0_0_1_n_n.rhsIdx i q 0).val = (q ⟨0, by decide⟩).val :=
  dot_S4096x64_S64x512_S4096x512_1_0_0_1_n_n.rhsIdx_val_of_single rfl i q
theorem mmA_rhs_1 (i : S4096x512.Idx) (q : dot_S4096x64_S64x512_S4096x512_1_0_0_1_n_n.contr.Idx) :
    (dot_S4096x64_S64x512_S4096x512_1_0_0_1_n_n.rhsIdx i q 1).val = (i 1).val := by
  unfold DotDims.rhsIdx
  rw [dif_neg (show ¬(1 : Fin S64x512.rank) ∈ dot_S4096x64_S64x512_S4096x512_1_0_0_1_n_n.rhsBatch by decide), dif_pos (show (1 : Fin S64x512.rank) ∈ dot_S4096x64_S64x512_S4096x512_1_0_0_1_n_n.rhsNonContracting by decide)]
  rfl

/-- The product into a zero accumulator, read at row `r`, column `c`: the sum over the contracted coordinate. -/
theorem mmA_apply {φ₁ φ₂ : FTy} (l : FVec Ideal S4096x64 φ₁) (w : FVec Ideal S64x512 φ₂) (r : Fin 4096) (c : Fin 512) :
    matmul dot_S4096x64_S64x512_S4096x512_1_0_0_1_n_n none l w (constant (F := Ideal) S4096x512 .f32 0x00000000#32) (ix2 r c)
      = ∑ k : Fin 64, l (ix2 r k) * w (ix2 k c) := by
  simp only [matmul]
  rw [Ideal.matmul_constant_zero_apply, ← Equiv.sum_comp (ValueIdx.contrEquiv1 dot_S4096x64_S64x512_S4096x512_1_0_0_1_n_n 64 rfl rfl).symm]
  refine Finset.sum_congr rfl fun k _ => ?_
  have hk := ValueIdx.contrEquiv1_symm_val dot_S4096x64_S64x512_S4096x512_1_0_0_1_n_n 64 rfl rfl k
  have el : dot_S4096x64_S64x512_S4096x512_1_0_0_1_n_n.lhsIdx (ix2 r c) ((ValueIdx.contrEquiv1 dot_S4096x64_S64x512_S4096x512_1_0_0_1_n_n 64 rfl rfl).symm k) = ix2 r k := funext fun a => Fin.ext (by
    match a with
    | ⟨0, _⟩ => exact mmA_lhs_0 _ _
    | ⟨1, _⟩ => exact (mmA_lhs_1 _ _).trans hk)
  have er : dot_S4096x64_S64x512_S4096x512_1_0_0_1_n_n.rhsIdx (ix2 r c) ((ValueIdx.contrEquiv1 dot_S4096x64_S64x512_S4096x512_1_0_0_1_n_n 64 rfl rfl).symm k) = ix2 k c := funext fun a => Fin.ext (by
    match a with
    | ⟨0, _⟩ => exact (mmA_rhs_0 _ _).trans hk
    | ⟨1, _⟩ => exact mmA_rhs_1 _ _)
  rw [el, er]

/-! ## The first layer, term by term -/

/-- One term of the first layer: column `o` of the points, spread along the rows, times row `o` of the first matrix,
    spread along the columns, read at `(j, k)`. -/
theorem term_apply (o : ℕ) (q : Fin 4) (hq : q.val = o) (x0 : FVec Ideal S4096x4 .f32) (x2 : FVec Ideal S4x64 .f32)
    (h1 : S4096x4.Slices ![0, o] S4096x1) (h2 : S4x64.Slices ![o, 0] S1x64)
    (hb1 : S4096x1.Broadcasts S4096x64) (hb2 : S1x64.Broadcasts S4096x64) (j : Fin 4096) (k : Fin 64) :
    mulf (broadcastTo S4096x64 (extractStridedSlice S4096x1 ![0, o] x0 h1) hb1)
        (broadcastTo S4096x64 (extractStridedSlice S1x64 ![o, 0] x2 h2) hb2) (ix2 j k)
      = x0 (ix2 j q) * x2 (ix2 q k) := by
  show broadcastTo S4096x64 (extractStridedSlice S4096x1 ![0, o] x0 h1) hb1 (ix2 j k)
      * broadcastTo S4096x64 (extractStridedSlice S1x64 ![o, 0] x2 h2) hb2 (ix2 j k) = _
  rw [broadcastCol_apply _ hb1 j k, broadcastTo_1b_ab_apply _ hb2 j k,
    slice2_axis1_apply o x0 h1 j (0 : Fin 1) q (by rw [hq]; rfl),
    slice2_axis0_apply o x2 h2 (0 : Fin 1) k q (by rw [hq]; rfl)]

/-- The block's second-layer pre-activation at point `j`, feature `d`: the second layer's sum over the 64 hidden
    features of point `j`, plus the bias, not yet clipped. -/
theorem pay8_apply (x0 : Vec Ideal S4096x4 .f32) (x2 : Vec Ideal S4x64 .f32) (x3 : Vec Ideal S1x64 .f32)
    (x4 : Vec Ideal S64x512 .f32) (x5 : Vec Ideal S1x512 .f32) (j : Fin 4096) (d : Fin 512) :
    k0_pay8 (F := Ideal) x0 x2 x3 x4 x5 (ix2 j d)
      = (∑ k : Fin 64, hidRow (fun q => x0 (ix2 j q)) x2 (fun k => x3 (ix2 (0 : Fin 1) k)) k * x4 (ix2 k d))
        + x5 (ix2 (0 : Fin 1) d) := by
  unfold k0_pay8
  rw [addf_apply, mmA_apply, broadcastTo_1b_ab_apply, shapeCast_self x5, shapeCast_self x3]
  refine congrArg (· + x5 (ix2 (0 : Fin 1) d)) (Finset.sum_congr rfl fun k _ => ?_)
  rw [truncf_apply, truncf_apply, maximumf_apply, broadcast_apply, addf_apply, addf_apply, addf_apply, addf_apply,
    term_apply 0 0 rfl, term_apply 1 1 rfl, term_apply 2 2 rfl, term_apply 3 3 rfl, broadcastTo_1b_ab_apply]
  unfold hidRow
  rw [Fin.sum_univ_four]
  show max _ (Ideal.ofBits .f32 0x00000000#32) * _ = _
  rw [Ideal.ofBits_zero_f32]

/-! ## The pooling product: 64 by 4096 times 4096 by 512, the 4096 points contracted -/

theorem mmB_lhs_0 (i : S64x512.Idx) (q : dot_S64x4096_S4096x512_S64x512_1_0_0_1_n_n.contr.Idx) :
    (dot_S64x4096_S4096x512_S64x512_1_0_0_1_n_n.lhsIdx i q 0).val = (i 0).val := by
  unfold DotDims.lhsIdx
  rw [dif_neg (show ¬(0 : Fin S64x4096.rank) ∈ dot_S64x4096_S4096x512_S64x512_1_0_0_1_n_n.lhsBatch by decide), dif_pos (show (0 : Fin S64x4096.rank) ∈ dot_S64x4096_S4096x512_S64x512_1_0_0_1_n_n.lhsNonContracting by decide)]
  rfl
theorem mmB_lhs_1 (i : S64x512.Idx) (q : dot_S64x4096_S4096x512_S64x512_1_0_0_1_n_n.contr.Idx) :
    (dot_S64x4096_S4096x512_S64x512_1_0_0_1_n_n.lhsIdx i q 1).val = (q ⟨0, by decide⟩).val :=
  dot_S64x4096_S4096x512_S64x512_1_0_0_1_n_n.lhsIdx_val_of_single rfl i q
theorem mmB_rhs_0 (i : S64x512.Idx) (q : dot_S64x4096_S4096x512_S64x512_1_0_0_1_n_n.contr.Idx) :
    (dot_S64x4096_S4096x512_S64x512_1_0_0_1_n_n.rhsIdx i q 0).val = (q ⟨0, by decide⟩).val :=
  dot_S64x4096_S4096x512_S64x512_1_0_0_1_n_n.rhsIdx_val_of_single rfl i q
theorem mmB_rhs_1 (i : S64x512.Idx) (q : dot_S64x4096_S4096x512_S64x512_1_0_0_1_n_n.contr.Idx) :
    (dot_S64x4096_S4096x512_S64x512_1_0_0_1_n_n.rhsIdx i q 1).val = (i 1).val := by
  unfold DotDims.rhsIdx
  rw [dif_neg (show ¬(1 : Fin S4096x512.rank) ∈ dot_S64x4096_S4096x512_S64x512_1_0_0_1_n_n.rhsBatch by decide), dif_pos (show (1 : Fin S4096x512.rank) ∈ dot_S64x4096_S4096x512_S64x512_1_0_0_1_n_n.rhsNonContracting by decide)]
  rfl

/-- The product into a zero accumulator, read at row `r`, column `c`: the sum over the contracted coordinate. -/
theorem mmB_apply {φ₁ φ₂ : FTy} (l : FVec Ideal S64x4096 φ₁) (w : FVec Ideal S4096x512 φ₂) (r : Fin 64) (c : Fin 512) :
    matmul dot_S64x4096_S4096x512_S64x512_1_0_0_1_n_n none l w (constant (F := Ideal) S64x512 .f32 0x00000000#32) (ix2 r c)
      = ∑ k : Fin 4096, l (ix2 r k) * w (ix2 k c) := by
  simp only [matmul]
  rw [Ideal.matmul_constant_zero_apply, ← Equiv.sum_comp (ValueIdx.contrEquiv1 dot_S64x4096_S4096x512_S64x512_1_0_0_1_n_n 4096 rfl rfl).symm]
  refine Finset.sum_congr rfl fun k _ => ?_
  have hk := ValueIdx.contrEquiv1_symm_val dot_S64x4096_S4096x512_S64x512_1_0_0_1_n_n 4096 rfl rfl k
  have el : dot_S64x4096_S4096x512_S64x512_1_0_0_1_n_n.lhsIdx (ix2 r c) ((ValueIdx.contrEquiv1 dot_S64x4096_S4096x512_S64x512_1_0_0_1_n_n 4096 rfl rfl).symm k) = ix2 r k := funext fun a => Fin.ext (by
    match a with
    | ⟨0, _⟩ => exact mmB_lhs_0 _ _
    | ⟨1, _⟩ => exact (mmB_lhs_1 _ _).trans hk)
  have er : dot_S64x4096_S4096x512_S64x512_1_0_0_1_n_n.rhsIdx (ix2 r c) ((ValueIdx.contrEquiv1 dot_S64x4096_S4096x512_S64x512_1_0_0_1_n_n 4096 rfl rfl).symm k) = ix2 k c := funext fun a => Fin.ext (by
    match a with
    | ⟨0, _⟩ => exact (mmB_rhs_0 _ _).trans hk
    | ⟨1, _⟩ => exact mmB_rhs_1 _ _)
  rw [el, er]

/-! ## The matrix of labels against points -/

/-- Whether two 32-bit words are equal, as a one-bit word widened to 32 bits and read as a number: one or zero. -/
theorem onehot_word (s t : BitVec 32) :
    FloatOps.sitofp (F := Ideal) .f32 ((IntOp.cmpi .eq s t).setWidth 32) = if s = t then (1 : EReal) else 0 := by
  show (((((IntOp.cmpi .eq s t).setWidth 32).toInt : ℤ) : ℝ) : EReal) = _
  by_cases h : s = t
  · have hb : (s == t) = true := beq_iff_eq.mpr h
    have hc : IntOp.cmpi .eq s t = 1#1 := by show BitVec.ofBool (s == t) = 1#1; rw [hb]; rfl
    have h1 : ((1#1 : BitVec 1).setWidth 32).toInt = 1 := by decide
    rw [hc, if_pos h, h1]; simp
  · have hb : (s == t) = false := beq_eq_false_iff_ne.mpr h
    have hc : IntOp.cmpi .eq s t = 0#1 := by show BitVec.ofBool (s == t) = 0#1; rw [hb]; rfl
    have h0 : ((0#1 : BitVec 1).setWidth 32).toInt = 0 := by decide
    rw [hc, if_neg h, h0]; simp

/-- The 64 by 4096 matrix of labels against points: entry `(b, j)` is one when point `j` carries label `b`, else zero. -/
theorem labelEntry_apply (x1 : Vec Ideal S1x1x4096 .i32) (b : Fin 64) (j : Fin 4096) :
    k0_pay1 (F := Ideal) x1 (ix2 b j)
      = if x1 (ix3 (0 : Fin 1) (0 : Fin 1) j) = BitVec.ofNat 32 b.val then (1 : EReal) else 0 := by
  unfold k0_pay1
  rw [sitofp_apply, extui_apply]
  show FloatOps.sitofp (F := Ideal) .f32 ((IntOp.cmpi .eq (broadcastTo S64x4096 _ _ (ix2 b j)) (broadcastTo S64x4096 _ _ (ix2 b j))).setWidth 32) = _
  rw [broadcastTo_1b_ab_apply, broadcastCol_apply, shapeCast_1ab_ab_apply, iota_single_apply, onehot_word]

/-- The accumulator of sums after the point: what it held, plus, for label `b` and feature `d`, the sum of the clipped
    feature over the block's points labelled `b`. -/
theorem pay2_apply (x0 : Vec Ideal S4096x4 .f32) (x1 : Vec Ideal S1x1x4096 .i32) (x2 : Vec Ideal S4x64 .f32)
    (x3 : Vec Ideal S1x64 .f32) (x4 : Vec Ideal S64x512 .f32) (x5 : Vec Ideal S1x512 .f32)
    (acc : Vec Ideal S64x512 .f32) (b : Fin 64) (d : Fin 512) :
    k0_pay2 (F := Ideal) (k0_pay8 (F := Ideal) x0 x2 x3 x4 x5) (Scalar.ofBits .f32 0x00000000#32) x1 acc (ix2 b d)
      = acc (ix2 b d) + ∑ j : Fin 4096,
          if x1 (ix3 (0 : Fin 1) (0 : Fin 1) j) = BitVec.ofNat 32 b.val then
            featRow (fun q => x0 (ix2 j q)) x2 (fun k => x3 (ix2 (0 : Fin 1) k)) x4 (fun e => x5 (ix2 (0 : Fin 1) e)) d
          else 0 := by
  unfold k0_pay2
  rw [shapeCast_self, addf_apply, mmB_apply]
  refine congrArg (acc (ix2 b d) + ·) (Finset.sum_congr rfl fun j _ => ?_)
  rw [labelEntry_apply, maximumf_apply, broadcast_apply, pay8_apply]
  by_cases hc : x1 (ix3 (0 : Fin 1) (0 : Fin 1) j) = BitVec.ofNat 32 b.val
  · rw [if_pos hc, if_pos hc, one_mul]
    show max _ (Ideal.ofBits .f32 0x00000000#32) = _
    rw [Ideal.ofBits_zero_f32]
    rfl
  · rw [if_neg hc, if_neg hc, zero_mul]

/-- The sums handed to the output block: the accumulator with a unit axis in front. -/
theorem pay4_apply (v : Vec Ideal S64x512 .f32) (u : Fin 1) (b : Fin 64) (d : Fin 512) :
    k0_pay4 (F := Ideal) v (ix3 u b d) = v (ix2 b d) := by
  unfold k0_pay4
  exact shapeCast_ab_1ab_apply v _ u b d

end Cert.KernelIdeal.PointValue

end
-- ==== Proof.LibRowSum.lean ====
/-
  A row sum kept as a column, read at the extended reals: for a rectangle `v : [n, d]`, the lane reduction over axis 1
  followed by the cast of the `[n]` result to `[n, 1]` (jnp's `sum(axis=1, keepdims=True)`) holds at `(r, 0)` the sum
  over the `d` columns of row `r`.
-/
import Idealize.ShloMosaic.PureOps.Ideal.Laws
import Idealize.ShloMosaic.Lib.Pipeline.Value
import Idealize.ShloMosaic.Lib.ValueIdx

open scoped BigOperators

namespace Idealize.ShloMosaic.RowSum

open Idealize.ShloMosaic Idealize.ShloMosaic.ValueIdx

/-- Over row `r` of the reduced vector, the source index with column `k` put back is `(r, k)`. -/
theorem lift_row {n d : Nat} (h : (⟨2, ![n, d]⟩ : Shape).Reduces [1] ⟨1, ![n]⟩) (r : Fin n) (k : Fin d) :
    h.lift (ix1 r) k = ix2 r k := by
  funext c
  refine Fin.ext ?_
  match c with
  | ⟨0, _⟩ => rfl
  | ⟨1, _⟩ => rfl

/-- The lane sum over axis 1 at row `r`: the sum of the row's `d` entries. -/
theorem rowSum_apply {n d : Nat} (v : FVec Ideal ⟨2, ![n, d]⟩ .f32) (acc : BitVec 32)
    (h : (⟨2, ![n, d]⟩ : Shape).Reduces [1] ⟨1, ![n]⟩) (hφ : FKind.Formats .f32) (hacc : acc = FKind.add.neutral .f32 hφ)
    (r : Fin n) :
    multiReduction .add [1] ⟨1, ![n]⟩ v acc h hφ hacc (ix1 r) = ∑ k : Fin d, v (ix2 r k) :=
  (Ideal.multiReduction_add_single v acc h hφ hacc (ix1 r)).trans
    (Finset.sum_congr rfl fun k _ => congrArg v (lift_row h r k))

/-- The same sum kept as a column `[n, 1]`, read at `(r, 0)`. -/
theorem rowSum_keepdims_apply {n d : Nat} (v : FVec Ideal ⟨2, ![n, d]⟩ .f32) (acc : BitVec 32)
    (h : (⟨2, ![n, d]⟩ : Shape).Reduces [1] ⟨1, ![n]⟩) (hφ : FKind.Formats .f32) (hacc : acc = FKind.add.neutral .f32 hφ)
    (hc : (⟨1, ![n]⟩ : Shape).ShapeCasts ⟨2, ![n, 1]⟩) (r : Fin n) (z : Fin 1) :
    shapeCast ⟨2, ![n, 1]⟩ (multiReduction .add [1] ⟨1, ![n]⟩ v acc h hφ hacc) hc (ix2 r z)
      = ∑ k : Fin d, v (ix2 r k) := by
  rw [shapeCast_apply _ hc (ix2 r z) (ix1 r) (by
    rw [Shape.rowMajor_val_one, Shape.rowMajor_val_two]
    show r.val = r.val * 1 + z.val
    omega)]
  exact rowSum_apply v acc h hφ hacc r

end Idealize.ShloMosaic.RowSum
-- ==== Proof.KCount.lean ====
/-
  The count side of one grid point's arithmetic, read at one element over the extended reals.

  The 64 by 4096 matrix whose entry (b, j) is one when point j of the block carries label b and zero otherwise is summed
  along its rows: row b's sum is the number of the block's points labelled b. It is kept as a column and added to what an
  accumulator of counts held.
-/
import proofs.«411606_j73160472920346_4_alg».proof.Proof.Gen.KernelIdeal.Skeleton
import proofs.«411606_j73160472920346_4_alg».proof.Proof.Spec
import proofs.«411606_j73160472920346_4_alg».proof.Proof.LibRowSum
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.PointCount

open Idealize.ShloMosaic Idealize.ShloMosaic.ValueIdx Cert.KernelIdeal Cert.KernelIdeal.Gen Cert.SegPool

/-- A column `[a, 1]` broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word of a comparison for equality, widened and read as a signed integer, is one where the two words agree and
    zero where they differ. -/
theorem onehot_scalar (s t : BitVec 32) :
    (FloatOps.sitofp (F := Ideal) .f32 ((IntOp.cmpi .eq s t).setWidth 32) : EReal) = if s = t then (1 : EReal) else 0 := by
  show (((((BitVec.ofBool (s == t)).setWidth 32).toInt : ℝ)) : EReal) = _
  by_cases h : s = t
  · have e : ((BitVec.ofBool true).setWidth 32).toInt = 1 := by decide
    rw [if_pos h, show (s == t) = true from by simpa using h, e]
    norm_num
  · have e : ((BitVec.ofBool false).setWidth 32).toInt = 0 := by decide
    rw [if_neg h, show (s == t) = false from by simpa using h, e]
    norm_num

/-- Entry `(b, j)` of the label matrix: one when point `j` carries label `b`, zero otherwise. -/
theorem pay1_apply (x1 : Vec Ideal S1x1x4096 .i32) (b : Fin 64) (j : Fin 4096) :
    k0_pay1 (F := Ideal) x1 (ix2 b j)
      = if x1 (ix3 (0 : Fin 1) (0 : Fin 1) j) = BitVec.ofNat 32 b.val then (1 : EReal) else 0 := by
  unfold k0_pay1
  refine Eq.trans ?_ (onehot_scalar _ _)
  show FloatOps.sitofp (F := Ideal) .f32 ((IntOp.cmpi .eq
      (broadcastTo S64x4096 (shapeCast S1x4096 x1 shapeCasts_S1x1x4096_S1x4096) broadcasts_S1x4096_S64x4096 (ix2 b j))
      (broadcastTo S64x4096 (iota .tc S64x1 32 [0] iota_S64x1_d0_w32) broadcasts_S64x1_S64x4096 (ix2 b j))).setWidth 32) = _
  rw [broadcastTo_1b_ab_apply, shapeCast_1ab_ab_apply, broadcastTo_a1_ab_apply, iota_single_apply]

/-- The zero column an accumulator of counts is reset to. -/
theorem pay7_apply (i : S64x1.Idx) : k0_pay7 (F := Ideal) i = 0 := by
  unfold k0_pay7
  show shapeCast S64x1 (broadcast S64x1 (Scalar.ofBits (F := Ideal) .f32 0x00000000#32)) shapeCasts_S64x1_S64x1 i = 0
  rw [shapeCast_self]
  exact Ideal.ofBits_zero_f32

/-- The accumulator of counts after the point: what it held plus the number of the block's points labelled `b`. -/
theorem pay3_apply (x1 : Vec Ideal S1x1x4096 .i32) (acc : Vec Ideal S64x1 .f32) (b : Fin 64) (z : Fin 1) :
    k0_pay3 (F := Ideal) x1 acc (ix2 b z)
      = acc (ix2 b z) + ∑ j : Fin 4096,
          if x1 (ix3 (0 : Fin 1) (0 : Fin 1) j) = BitVec.ofNat 32 b.val then (1 : EReal) else 0 := by
  unfold k0_pay3
  show shapeCast S64x1 (addf acc (shapeCast S64x1
      (multiReduction .add [1] S64 (k0_pay1 (F := Ideal) x1) 0x00000000#32 reduces_S64x4096_S64 (.inl rfl) rfl)
      shapeCasts_S64_S64x1)) shapeCasts_S64x1_S64x1 (ix2 b z) = _
  rw [shapeCast_self]
  refine congrArg (acc (ix2 b z) + ·) ?_
  refine (RowSum.rowSum_keepdims_apply _ _ _ _ _ _ b z).trans ?_
  exact Finset.sum_congr rfl fun j _ => pay1_apply x1 b j

/-- The counts handed to the output block: the accumulator with a unit axis in front. -/
theorem pay5_apply (v : Vec Ideal S64x1 .f32) (u : Fin 1) (b : Fin 64) (z : Fin 1) :
    k0_pay5 (F := Ideal) v (ix3 u b z) = v (ix2 b z) := by
  unfold k0_pay5
  exact shapeCast_ab_1ab_apply v _ u b z

end Cert.KernelIdeal.PointCount

end
-- ==== Proof.KBlocks.lean ====
/-
  What each window of the grid reads at a point, in terms of the argument arrays.

  The grid has 128 points; point `t` reads the 4096 points from `4096 t` on (all four coordinates) and their 4096 labels,
  and at every point the two weight matrices and the two biases whole. The labels reach the kernel reshaped from
  `[524288]` to `[128, 1, 4096]` and the biases reshaped to one-row matrices; row-major order makes entry `(t, 0, j)` of
  the reshaped labels label `4096 t + j`, and entry `(0, k)` of a reshaped bias its entry `k`.
-/
import proofs.«411606_j73160472920346_4_alg».proof.Proof.Gen.KernelIdeal.Frame.Runs
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ)

/-- The six argument arrays on core `c`, at their literal types. -/
abbrev arr0 (c : Dev nD) : Vec F S524288x4 .f32 := m ((c : Thread nD τ).loc main_arg0)
abbrev arr1 (c : Dev nD) : Vec F S524288 .i32 := m ((c : Thread nD τ).loc main_arg1)
abbrev arr2 (c : Dev nD) : Vec F S4x64 .f32 := m ((c : Thread nD τ).loc main_arg2)
abbrev arr3 (c : Dev nD) : Vec F S64 .f32 := m ((c : Thread nD τ).loc main_arg3)
abbrev arr4 (c : Dev nD) : Vec F S64x512 .f32 := m ((c : Thread nD τ).loc main_arg4)
abbrev arr5 (c : Dev nD) : Vec F S512 .f32 := m ((c : Thread nD τ).loc main_arg5)

/-- The six input windows' blocks at point `t`, at their literal types. -/
abbrev blk0 (c : Dev nD) (t : Fin cfg0.N) : Vec F S4096x4 .f32 := iblk m c 0 t
abbrev blk1 (c : Dev nD) (t : Fin cfg0.N) : Vec F S1x1x4096 .i32 := iblk m c 1 t
abbrev blk2 (c : Dev nD) (t : Fin cfg0.N) : Vec F S4x64 .f32 := iblk m c 2 t
abbrev blk3 (c : Dev nD) (t : Fin cfg0.N) : Vec F S1x64 .f32 := iblk m c 3 t
abbrev blk4 (c : Dev nD) (t : Fin cfg0.N) : Vec F S64x512 .f32 := iblk m c 4 t
abbrev blk5 (c : Dev nD) (t : Fin cfg0.N) : Vec F S1x512 .f32 := iblk m c 5 t

/-- Point `t` of the grid is one of 128. -/
theorem lt128 (t : Fin cfg0.N) : t.val < 128 := lt_of_lt_of_eq t.isLt (show cfg0.N = 128 from N_0)

/-- Row `j` of point `t`'s block is point `4096 t + j` of the arrays. -/
def rowOf (t : Fin cfg0.N) (j : Fin 4096) : Fin 524288 := ⟨t.val * 4096 + j.val, by have := lt128 t; omega⟩

/-! ### The windows' block indices, decided over the 128 points -/

/-- Window 0 steps along axis 0 with the point and stays at block 0 on axis 1. -/
theorem idx0 : ∀ t : Fin cfg0.N, win0_0.index t (0 : Fin 2) = t.val ∧ win0_0.index t (1 : Fin 2) = 0 :=
  (by decide +kernel : ∀ t : Fin grid0.N, _)
/-- Window 1 steps along axis 0 with the point and stays at block 0 on axes 1 and 2. -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
/-- Windows 2 to 5 are at block 0 on both axes at every point. -/
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-! ### The three arrays a host reshape wrote before the region -/

/-- The labels as the region finds them: the argument `[524288]` reshaped to `[128, 1, 4096]`. -/
theorem v2_eq (c : Dev nD) :
    (V m c main_v2 : S128x1x4096.Idx → Elt F .i32) = shapeCast S128x1x4096 (arr1 m c) shapeCasts_S524288_S128x1x4096 := by
  show StableHlo.after hostOps0 (fun b => m (c, b)) (Proc.devRef .tc main_v2) = _
  after_results
  rfl
/-- The first bias as the region finds it: the argument `[64]` reshaped to `[1, 64]`. -/
theorem v0_eq (c : Dev nD) :
    (V m c main_v0 : S1x64.Idx → Elt F .f32) = shapeCast S1x64 (arr3 m c) shapeCasts_S64_S1x64 := by
  show StableHlo.after hostOps0 (fun b => m (c, b)) (Proc.devRef .tc main_v0) = _
  after_results
  rfl
/-- The second bias as the region finds it: the argument `[512]` reshaped to `[1, 512]`. -/
theorem v1_eq (c : Dev nD) :
    (V m c main_v1 : S1x512.Idx → Elt F .f32) = shapeCast S1x512 (arr5 m c) shapeCasts_S512_S1x512 := by
  show StableHlo.after hostOps0 (fun b => m (c, b)) (Proc.devRef .tc main_v1) = _
  after_results
  rfl

/-- Row-major order: entry `(t, 0, j)` of the reshaped labels is label `4096 t + j`. -/
theorem labels_reshape_apply (x : Vec F S524288 .i32) (r : Fin 128) (j : Fin 4096) (i : Fin 524288)
    (hi : i.val = r.val * 4096 + j.val) :
    shapeCast S128x1x4096 x shapeCasts_S524288_S128x1x4096 (ix3 r (0 : Fin 1) j) = x (ix1 i) :=
  shapeCast_apply x _ _ _ (by
    rw [Shape.rowMajor_val_one, Shape.rowMajor_val_three]
    show i.val = (r.val * 1 + 0) * 4096 + j.val
    omega)

theorem blk0_apply (c : Dev nD) (t : Fin cfg0.N) (j : Fin 4096) (q : Fin 4) :
    blk0 m c t (ix2 j q) = arr0 m c (ix2 (rowOf t j) q) := by
  show iblk m c 0 t (ix2 j q) = _
  unfold iblk
  rw [View.read_apply]
  show V m c main_arg0 (((cfg0.win 0).blk t).view.emb (ix2 j q)) = m ((c : Thread nD τ).loc main_arg0) (ix2 (rowOf t j) q)
  rw [V_main_arg0]
  congr 1
  funext a
  apply Fin.ext
  match a with
  | ⟨0, _⟩ =>
    show win0_0.index t 0 * 4096 + 1 * j.val = t.val * 4096 + j.val
    rw [(idx0 t).1]; omega
  | ⟨1, _⟩ =>
    show win0_0.index t 1 * 4 + 1 * q.val = q.val
    rw [(idx0 t).2]; omega

theorem blk1_apply (c : Dev nD) (t : Fin cfg0.N) (j : Fin 4096) :
    blk1 m c t (ix3 (0 : Fin 1) (0 : Fin 1) j) = arr1 m c (ix1 (rowOf t j)) := by
  show iblk m c 1 t (ix3 (0 : Fin 1) (0 : Fin 1) j) = _
  unfold iblk
  rw [View.read_apply]
  show V m c main_v2 (((cfg0.win 1).blk t).view.emb (ix3 (0 : Fin 1) (0 : Fin 1) j)) = _
  have hemb : ((cfg0.win 1).blk t).view.emb (ix3 (0 : Fin 1) (0 : Fin 1) j)
      = (ix3 (⟨t.val, lt128 t⟩ : Fin 128) (0 : Fin 1) j : S128x1x4096.Idx) := by
    funext a
    apply Fin.ext
    match a with
    | ⟨0, _⟩ =>
      show win0_1.index t 0 * 1 + 1 * 0 = t.val
      rw [(idx1 t).1]; omega
    | ⟨1, _⟩ =>
      show win0_1.index t 1 * 1 + 1 * 0 = 0
      rw [(idx1 t).2.1]
    | ⟨2, _⟩ =>
      show win0_1.index t 2 * 4096 + 1 * j.val = j.val
      rw [(idx1 t).2.2]; omega
  rw [hemb, v2_eq]
  exact labels_reshape_apply (arr1 m c) ⟨t.val, lt128 t⟩ j (rowOf t j) rfl

theorem blk2_eq (c : Dev nD) (t : Fin cfg0.N) : blk2 m c t = arr2 m c := by
  funext y
  obtain ⟨p, q, rfl⟩ : ∃ (p : Fin 4) (q : Fin 64), y = ix2 p q := ⟨y 0, y 1, eq_ix2 y⟩
  show iblk m c 2 t (ix2 p q) = _
  unfold iblk
  rw [View.read_apply]
  show V m c main_arg2 (((cfg0.win 2).blk t).view.emb (ix2 p q)) = m ((c : Thread nD τ).loc main_arg2) (ix2 p q)
  rw [V_main_arg2]
  congr 1
  funext a
  apply Fin.ext
  match a with
  | ⟨0, _⟩ =>
    show win0_2.index t 0 * 4 + 1 * p.val = p.val
    rw [(idx2 t).1]; omega
  | ⟨1, _⟩ =>
    show win0_2.index t 1 * 64 + 1 * q.val = q.val
    rw [(idx2 t).2]; omega

theorem blk3_apply (c : Dev nD) (t : Fin cfg0.N) (k : Fin 64) :
    blk3 m c t (ix2 (0 : Fin 1) k) = arr3 m c (ix1 k) := by
  show iblk m c 3 t (ix2 (0 : Fin 1) k) = _
  unfold iblk
  rw [View.read_apply]
  show V m c main_v0 (((cfg0.win 3).blk t).view.emb (ix2 (0 : Fin 1) k)) = _
  have hemb : ((cfg0.win 3).blk t).view.emb (ix2 (0 : Fin 1) k) = (ix2 (0 : Fin 1) k : S1x64.Idx) := by
    funext a
    apply Fin.ext
    match a with
    | ⟨0, _⟩ =>
      show win0_3.index t 0 * 1 + 1 * 0 = 0
      rw [(idx3 t).1]
    | ⟨1, _⟩ =>
      show win0_3.index t 1 * 64 + 1 * k.val = k.val
      rw [(idx3 t).2]; omega
  rw [hemb, v0_eq]
  exact shapeCast_a_1a_apply (arr3 m c) shapeCasts_S64_S1x64 0 k

theorem blk4_eq (c : Dev nD) (t : Fin cfg0.N) : blk4 m c t = arr4 m c := by
  funext y
  obtain ⟨p, q, rfl⟩ : ∃ (p : Fin 64) (q : Fin 512), y = ix2 p q := ⟨y 0, y 1, eq_ix2 y⟩
  show iblk m c 4 t (ix2 p q) = _
  unfold iblk
  rw [View.read_apply]
  show V m c main_arg4 (((cfg0.win 4).blk t).view.emb (ix2 p q)) = m ((c : Thread nD τ).loc main_arg4) (ix2 p q)
  rw [V_main_arg4]
  congr 1
  funext a
  apply Fin.ext
  match a with
  | ⟨0, _⟩ =>
    show win0_4.index t 0 * 64 + 1 * p.val = p.val
    rw [(idx4 t).1]; omega
  | ⟨1, _⟩ =>
    show win0_4.index t 1 * 512 + 1 * q.val = q.val
    rw [(idx4 t).2]; omega

theorem blk5_apply (c : Dev nD) (t : Fin cfg0.N) (e : Fin 512) :
    blk5 m c t (ix2 (0 : Fin 1) e) = arr5 m c (ix1 e) := by
  show iblk m c 5 t (ix2 (0 : Fin 1) e) = _
  unfold iblk
  rw [View.read_apply]
  show V m c main_v1 (((cfg0.win 5).blk t).view.emb (ix2 (0 : Fin 1) e)) = _
  have hemb : ((cfg0.win 5).blk t).view.emb (ix2 (0 : Fin 1) e) = (ix2 (0 : Fin 1) e : S1x512.Idx) := by
    funext a
    apply Fin.ext
    match a with
    | ⟨0, _⟩ =>
      show win0_5.index t 0 * 1 + 1 * 0 = 0
      rw [(idx5 t).1]
    | ⟨1, _⟩ =>
      show win0_5.index t 1 * 512 + 1 * e.val = e.val
      rw [(idx5 t).2]; omega
  rw [hemb, v1_eq]
  exact shapeCast_a_1a_apply (arr5 m c) shapeCasts_S512_S1x512 0 e

end Cert.KernelIdeal.Blocks

end
-- ==== Proof.KAccum.lean ====
/-
  The two accumulators over a run of 64 grid points.

  Within each run of 64 points the kernel's accumulator of sums starts at zero and gains, at each point, that point's
  block sums; likewise the accumulator of counts. So after the last point of a run they hold zero plus the sum of the
  run's 64 block shares, and the output blocks written there hold the same with a unit axis in front. The block shares
  are those of the specification: block `t` of the points, labels and features of the argument arrays.
-/
import proofs.«411606_j73160472920346_4_alg».proof.Proof.Gen.KernelIdeal.Frame
import proofs.«411606_j73160472920346_4_alg».proof.Proof.KPieces
import proofs.«411606_j73160472920346_4_alg».proof.Proof.KPayload
import proofs.«411606_j73160472920346_4_alg».proof.Proof.KCount
import proofs.«411606_j73160472920346_4_alg».proof.Proof.KBlocks
import proofs.«411606_j73160472920346_4_alg».proof.Proof.Spec
import Idealize.ShloMosaic.Lib.Pipeline.Value

open scoped BigOperators

noncomputable section

namespace Cert.KernelIdeal.Accum

open Idealize.ShloMosaic Idealize.ShloMosaic.TcCoe Idealize.ShloMosaic.ValueIdx Idealize.SL.Sem
open Cert.KernelIdeal Cert.KernelIdeal.Gen Cert.KernelIdeal.Blocks Cert.KernelIdeal.Pieces Cert.SegPool

variable (m : (ℓ : Loc nD τ sig) → Buf (Elt Ideal) ℓ)

/-- Feature `d` of point `p` of core `c`'s argument arrays. -/
abbrev featOf (c : Dev nD) (d : Fin 512) (p : Fin 524288) : EReal :=
  feat (arr0 m c) (arr2 m c) (arr3 m c) (arr4 m c) (arr5 m c) p d

/-- Block `n`'s share of the segment sums, as a 64 by 512 array. -/
def addS (c : Dev nD) (n : ℕ) : S64x512.Idx → EReal := fun i => blockSeg (arr1 m c) (featOf m c (i 1)) (i 0) n

/-- Block `n`'s share of the segment counts, as a 64 by 1 column. -/
def addC (c : Dev nD) (n : ℕ) : S64x1.Idx → EReal := fun i => blockSeg (arr1 m c) (fun _ => 1) (i 0) n

/-- The sums' step at point `t`: the accumulator gains block `t`'s share. -/
theorem stepS (c : Dev nD) (t : Fin cfg0.N) (acc : Vec Ideal S64x512 .f32) (i : S64x512.Idx) :
    k0_pay2 (F := Ideal) (k0_pay8 (F := Ideal) (blk0 m c t) (blk2 m c t) (blk3 m c t) (blk4 m c t) (blk5 m c t))
        (Scalar.ofBits .f32 0x00000000#32) (blk1 m c t) acc i
      = acc i + addS m c t.val i := by
  obtain ⟨b, d, rfl⟩ : ∃ (b : Fin 64) (d : Fin 512), i = ix2 b d := ⟨i 0, i 1, eq_ix2 i⟩
  refine (PointValue.pay2_apply _ _ _ _ _ _ acc b d).trans ?_
  congr 1
  unfold addS blockSeg blockOf
  rw [dif_pos (lt128 t)]
  refine Finset.sum_congr rfl fun j _ => ?_
  rw [blk1_apply m c t j]
  simp only [blk0_apply m c t, blk2_eq m c t, blk3_apply m c t, blk4_eq m c t, blk5_apply m c t]
  rfl

/-- The counts' step at point `t`: the accumulator gains block `t`'s count of each label. -/
theorem stepC (c : Dev nD) (t : Fin cfg0.N) (acc : Vec Ideal S64x1 .f32) (i : S64x1.Idx) :
    k0_pay3 (F := Ideal) (blk1 m c t) acc i = acc i + addC m c t.val i := by
  obtain ⟨b, z, rfl⟩ : ∃ (b : Fin 64) (z : Fin 1), i = ix2 b z := ⟨i 0, i 1, eq_ix2 i⟩
  refine (PointCount.pay3_apply _ acc b z).trans ?_
  congr 1
  unfold addC blockSeg blockOf
  rw [dif_pos (lt128 t)]
  refine Finset.sum_congr rfl fun j _ => ?_
  rw [blk1_apply m c t j]
  rfl

/-! ## The accumulators point by point -/

/-- The accumulator of sums, and of counts, after point `n`. -/
abbrev accS (c : Dev nD) (n : ℕ) (h : n < cfg0.N) : Vec Ideal S64x512 .f32 := (outsAt0 m c n h).2.2.1
abbrev accC (c : Dev nD) (n : ℕ) (h : n < cfg0.N) : Vec Ideal S64x1 .f32 := (outsAt0 m c n h).2.2.2

/-- What the accumulator of sums holds after a run's first point, and after a later point from what it held. -/
def resetS (c : Dev nD) (n : ℕ) (h : n < cfg0.N) : Vec Ideal S64x512 .f32 :=
  k0_pay2 (F := Ideal) (k0_pay8 (F := Ideal) (blk0 m c ⟨n, h⟩) (blk2 m c ⟨n, h⟩) (blk3 m c ⟨n, h⟩) (blk4 m c ⟨n, h⟩) (blk5 m c ⟨n, h⟩))
    (Scalar.ofBits .f32 0x00000000#32) (blk1 m c ⟨n, h⟩) (k0_pay6 (F := Ideal))
def nextS (c : Dev nD) (n : ℕ) (h : n < cfg0.N) (acc : Vec Ideal S64x512 .f32) : Vec Ideal S64x512 .f32 :=
  k0_pay2 (F := Ideal) (k0_pay8 (F := Ideal) (blk0 m c ⟨n, h⟩) (blk2 m c ⟨n, h⟩) (blk3 m c ⟨n, h⟩) (blk4 m c ⟨n, h⟩) (blk5 m c ⟨n, h⟩))
    (Scalar.ofBits .f32 0x00000000#32) (blk1 m c ⟨n, h⟩) acc

/-- The same for the accumulator of counts. -/
def resetC (c : Dev nD) (n : ℕ) (h : n < cfg0.N) : Vec Ideal S64x1 .f32 :=
  k0_pay3 (F := Ideal) (blk1 m c ⟨n, h⟩) (k0_pay7 (F := Ideal))
def nextC (c : Dev nD) (n : ℕ) (h : n < cfg0.N) (acc : Vec Ideal S64x1 .f32) : Vec Ideal S64x1 .f32 :=
  k0_pay3 (F := Ideal) (blk1 m c ⟨n, h⟩) acc

theorem accS_reset (c : Dev nD) (n : ℕ) (h : n < cfg0.N) (hn : n % 64 = 0) : accS m c n h = resetS m c n h := by
  have h1 : ¬(⟨n, h⟩ : Fin cfg0.N).val % 64 = 63 := by dsimp only; omega
  show (outsAt0 m c (⟨n, h⟩ : Fin cfg0.N).val (⟨n, h⟩ : Fin cfg0.N).isLt).2.2.1 = _
  rw [outsAt0_A m c ⟨n, h⟩ hn h1]
  dsimp only
  exact sA0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) scM0_1 (Memref.isWhole_whole _) (iblk m c 0 ⟨n, h⟩) (iblk m c 1 ⟨n, h⟩) (iblk m c 2 ⟨n, h⟩) (iblk m c 3 ⟨n, h⟩) (iblk m c 4 ⟨n, h⟩) (iblk m c 5 ⟨n, h⟩) ((hcond0_0 ⟨n, h⟩).mpr hn) (fun hh => h1 ((hcond0_1 ⟨n, h⟩).mp hh))

theorem accC_reset (c : Dev nD) (n : ℕ) (h : n < cfg0.N) (hn : n % 64 = 0) : accC m c n h = resetC m c n h := by
  have h1 : ¬(⟨n, h⟩ : Fin cfg0.N).val % 64 = 63 := by dsimp only; omega
  show (outsAt0 m c (⟨n, h⟩ : Fin cfg0.N).val (⟨n, h⟩ : Fin cfg0.N).isLt).2.2.2 = _
  rw [outsAt0_A m c ⟨n, h⟩ hn h1]
  dsimp only
  exact sA1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) scM0_1 (Memref.isWhole_whole _) (iblk m c 0 ⟨n, h⟩) (iblk m c 1 ⟨n, h⟩) (iblk m c 2 ⟨n, h⟩) (iblk m c 3 ⟨n, h⟩) (iblk m c 4 ⟨n, h⟩) (iblk m c 5 ⟨n, h⟩) ((hcond0_0 ⟨n, h⟩).mpr hn) (fun hh => h1 ((hcond0_1 ⟨n, h⟩).mp hh))

theorem accS_step (c : Dev nD) (n : ℕ) (h : n + 1 < cfg0.N) (hn : ¬(n + 1) % 64 = 0) :
    accS m c (n + 1) h = nextS m c (n + 1) h (accS m c n (Nat.lt_of_succ_lt h)) := by
  by_cases h1 : (n + 1) % 64 = 63
  · show (outsAt0 m c (⟨n + 1, h⟩ : Fin cfg0.N).val (⟨n + 1, h⟩ : Fin cfg0.N).isLt).2.2.1 = _
    rw [outsAt0_C m c ⟨n + 1, h⟩ hn h1]
    dsimp only
    exact sC0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2.2.1 (outsAt0 m c n (Nat.lt_of_succ_lt h)).2.2.2
      (fun hh => hn ((hcond0_0 ⟨n + 1, h⟩).mp hh)) ((hcond0_1 ⟨n + 1, h⟩).mpr h1)
  · show (outsAt0 m c (⟨n + 1, h⟩ : Fin cfg0.N).val (⟨n + 1, h⟩ : Fin cfg0.N).isLt).2.2.1 = _
    rw [outsAt0_B m c ⟨n + 1, h⟩ hn h1]
    dsimp only
    exact sB0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2.2.1 (outsAt0 m c n (Nat.lt_of_succ_lt h)).2.2.2
      (fun hh => hn ((hcond0_0 ⟨n + 1, h⟩).mp hh)) (fun hh => h1 ((hcond0_1 ⟨n + 1, h⟩).mp hh))

theorem accC_step (c : Dev nD) (n : ℕ) (h : n + 1 < cfg0.N) (hn : ¬(n + 1) % 64 = 0) :
    accC m c (n + 1) h = nextC m c (n + 1) h (accC m c n (Nat.lt_of_succ_lt h)) := by
  by_cases h1 : (n + 1) % 64 = 63
  · show (outsAt0 m c (⟨n + 1, h⟩ : Fin cfg0.N).val (⟨n + 1, h⟩ : Fin cfg0.N).isLt).2.2.2 = _
    rw [outsAt0_C m c ⟨n + 1, h⟩ hn h1]
    dsimp only
    exact sC1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2.2.1 (outsAt0 m c n (Nat.lt_of_succ_lt h)).2.2.2
      (fun hh => hn ((hcond0_0 ⟨n + 1, h⟩).mp hh)) ((hcond0_1 ⟨n + 1, h⟩).mpr h1)
  · show (outsAt0 m c (⟨n + 1, h⟩ : Fin cfg0.N).val (⟨n + 1, h⟩ : Fin cfg0.N).isLt).2.2.2 = _
    rw [outsAt0_B m c ⟨n + 1, h⟩ hn h1]
    dsimp only
    exact sB1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2.2.1 (outsAt0 m c n (Nat.lt_of_succ_lt h)).2.2.2
      (fun hh => hn ((hcond0_0 ⟨n + 1, h⟩).mp hh)) (fun hh => h1 ((hcond0_1 ⟨n + 1, h⟩).mp hh))

/-! ## After a run's last point -/

/-- The accumulator of sums after the last point of its run: zero plus the run's 64 block shares. -/
theorem sums_last (c : Dev nD) (t : Fin cfg0.N) (h63 : t.val % 64 = 63) (i : S64x512.Idx) :
    accS m c t.val t.isLt i = 0 + ∑ s ∈ Finset.range 64, addS m c (64 * (t.val / 64) + s) i := by
  have hb : 64 * (t.val / 64) + t.val % 64 < cfg0.N := by rw [Nat.div_add_mod]; exact t.isLt
  rw [Pipeline.eq_accAt_of_mod (accS m c) 64 (resetS m c) (nextS m c) (accS_reset m c) (accS_step m c) (by decide) t.val t.isLt hb]
  refine (Pipeline.accAt_add_apply (resetS m c) (nextS m c) (fun _ => (0 : EReal)) (addS m c) (64 * (t.val / 64)) 63
    (fun h j => ?_) (fun n h acc j _ _ => ?_) (t.val % 64) (by omega) hb i).trans ?_
  · unfold resetS
    rw [stepS m c ⟨64 * (t.val / 64), h⟩, PointValue.pay6_apply]
  · unfold nextS
    exact stepS m c ⟨n, h⟩ acc j
  · rw [h63]

/-- The accumulator of counts after the last point of its run: zero plus the run's 64 block counts. -/
theorem counts_last (c : Dev nD) (t : Fin cfg0.N) (h63 : t.val % 64 = 63) (i : S64x1.Idx) :
    accC m c t.val t.isLt i = 0 + ∑ s ∈ Finset.range 64, addC m c (64 * (t.val / 64) + s) i := by
  have hb : 64 * (t.val / 64) + t.val % 64 < cfg0.N := by rw [Nat.div_add_mod]; exact t.isLt
  rw [Pipeline.eq_accAt_of_mod (accC m c) 64 (resetC m c) (nextC m c) (accC_reset m c) (accC_step m c) (by decide) t.val t.isLt hb]
  refine (Pipeline.accAt_add_apply (resetC m c) (nextC m c) (fun _ => (0 : EReal)) (addC m c) (64 * (t.val / 64)) 63
    (fun h j => ?_) (fun n h acc j _ _ => ?_) (t.val % 64) (by omega) hb i).trans ?_
  · unfold resetC
    rw [stepC m c ⟨64 * (t.val / 64), h⟩, PointCount.pay7_apply]
  · unfold nextC
    exact stepC m c ⟨n, h⟩ acc j
  · rw [h63]

/-- The output block of sums written at a run's last point: the accumulator there, a unit axis in front. -/
theorem out6_last (c : Dev nD) (t : Fin cfg0.N) (h63 : t.val % 64 = 63) (u : Fin 1) (b : Fin 64) (d : Fin 512) :
    (outsAt0 m c t.val t.isLt).1 (ix3 u b d) = 0 + ∑ s ∈ Finset.range 64, addS m c (64 * (t.val / 64) + s) (ix2 b d) := by
  have h0 : ¬t.val % 64 = 0 := by omega
  have e : (outsAt0 m c t.val t.isLt).1 = k0_pay4 (F := Ideal) (accS m c t.val t.isLt) := by
    show _ = k0_pay4 (F := Ideal) (outsAt0 m c t.val t.isLt).2.2.1
    rw [outsAt0_C m c t h0 h63]
    dsimp only
    rw [oC6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2 (fun hh => h0 ((hcond0_0 t).mp hh)) ((hcond0_1 t).mpr h63),
      sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2 (fun hh => h0 ((hcond0_0 t).mp hh)) ((hcond0_1 t).mpr h63)]
  rw [e, PointValue.pay4_apply]
  exact sums_last m c t h63 (ix2 b d)

/-- The output block of counts written at a run's last point. -/
theorem out7_last (c : Dev nD) (t : Fin cfg0.N) (h63 : t.val % 64 = 63) (u : Fin 1) (b : Fin 64) (z : Fin 1) :
    (outsAt0 m c t.val t.isLt).2.1 (ix3 u b z) = 0 + ∑ s ∈ Finset.range 64, addC m c (64 * (t.val / 64) + s) (ix2 b z) := by
  have h0 : ¬t.val % 64 = 0 := by omega
  have e : (outsAt0 m c t.val t.isLt).2.1 = k0_pay5 (F := Ideal) (accC m c t.val t.isLt) := by
    show _ = k0_pay5 (F := Ideal) (outsAt0 m c t.val t.isLt).2.2.2
    rw [outsAt0_C m c t h0 h63]
    dsimp only
    rw [oC7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2 (fun hh => h0 ((hcond0_0 t).mp hh)) ((hcond0_1 t).mpr h63),
      sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2 (fun hh => h0 ((hcond0_0 t).mp hh)) ((hcond0_1 t).mpr h63)]
  rw [e, PointCount.pay5_apply]
  exact counts_last m c t h63 (ix2 b z)

end Cert.KernelIdeal.Accum

end
-- ==== Proof.KFinal.lean ====
/-
  The two arrays the kernel ends with.

  Each of the two output windows is written back once per run of 64 grid points, at the run's last point, into block
  `c` of its array for run `c`. What is written there is the run's accumulator. The two blocks tile the array, so the
  array of sums ends holding, at `(c, b, d)`, zero plus the 64 block shares of run `c` at `(b, d)`, and the array of
  counts likewise.
-/
import proofs.«411606_j73160472920346_4_alg».proof.Proof.KAccum
import Idealize.ShloMosaic.Lib.Pipeline.Value

open scoped BigOperators

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Accum

variable (m : (ℓ : Loc nD τ sig) → Buf (Elt Ideal) ℓ)

/-- Run `r`'s total at label `b`, feature `d`: zero plus its 64 block shares. -/
def g6 (c : Dev nD) (r : Fin 2) (b : Fin 64) (d : Fin 512) : EReal :=
  0 + ∑ s ∈ Finset.range 64, addS m c (64 * r.val + s) (ix2 b d)

/-- Run `r`'s count of label `b`. -/
def g7 (c : Dev nD) (r : Fin 2) (b : Fin 64) (z : Fin 1) : EReal :=
  0 + ∑ s ∈ Finset.range 64, addC m c (64 * r.val + s) (ix2 b z)

/-- The array of per-run sums, and of per-run counts. -/
def G6 (c : Dev nD) : Vec Ideal S2x64x512 .f32 := fun i => g6 m c (i 0) (i 1) (i 2)
def G7 (c : Dev nD) : Vec Ideal S2x64x1 .f32 := fun i => g7 m c (i 0) (i 1) (i 2)

/-! ## The array of sums: window 6 -/

/-- `g6` depends on its run, label and last coordinate only through their values. -/
theorem g6_congr (c : Dev nD) (r r' : Fin 2) (b b' : Fin 64) (d d' : Fin 512) (hr : r.val = r'.val) (hb : b.val = b'.val)
    (hd : d.val = d'.val) : g6 m c r b d = g6 m c r' b' d' := by
  obtain rfl := Fin.ext hr
  obtain rfl := Fin.ext hb
  obtain rfl := Fin.ext hd
  rfl

/-- Where window 6's block sits at grid point `t`: block `t / 64` along the runs, block 0 on the other two axes. -/
theorem idx6 : ∀ t : Fin cfg0.N, win0_6.index t (0 : Fin 3) = t.val / 64 ∧ win0_6.index t (1 : Fin 3) = 0
    ∧ win0_6.index t (2 : Fin 3) = 0 :=
  (by decide +kernel : ∀ t : Fin grid0.N, _)

/-- What a run's last point writes back is that point's block of `G6`. -/
theorem flushed6_eq (c : Dev nD) (t : Fin cfg0.N) (hf : (cfg0.win 6).flush t = true) :
    (dats m 0 c).flushed 6 t = ((cfg0.win 6).blk t).view.read (Elt Ideal) (G6 m c) := by
  have h63 : t.val % 64 = 63 := (flush0_6 t).mp hf
  have hN : cfg0.N = 128 := N_0
  have ht : t.val < 128 := by have := t.isLt; omega
  obtain ⟨e0, e1, e2⟩ := idx6 t
  show (cfg0.win 6).cut (grid0.coords t) ((dats m 0 c).after 6 t) = _
  rw [after0_6]
  funext y
  obtain ⟨u, b, d, rfl⟩ : ∃ (u : Fin 1) (b : Fin 64) (d : Fin 512), y = ix3 u b d := ⟨y 0, y 1, y 2, eq_ix3 y⟩
  show (outsAt0 m c t.val t.isLt).1 (ix3 u b d) = G6 m c (((cfg0.win 6).blk t).view.emb (ix3 u b d))
  rw [out6_last m c t h63 u b d]
  have hu : u.val = 0 := by omega
  refine Eq.trans ?_ (g6_congr m c ⟨t.val / 64, by omega⟩ _ b _ d _ ?_ ?_ ?_)
  · rfl
  · show t.val / 64 = win0_6.index t (0 : Fin 3) * 1 + 1 * u.val
    omega
  · show b.val = win0_6.index t (1 : Fin 3) * 64 + 1 * b.val
    omega
  · show d.val = win0_6.index t (2 : Fin 3) * 512 + 1 * d.val
    omega

/-- An index of the array is in point `t`'s block iff each coordinate is in the block's range on its axis. -/
theorem mem_blk6 (t : Fin cfg0.N) (i : S2x64x512.Idx) :
    i ∈ ((cfg0.win 6).blk t).view.set ↔ ∀ a : Fin 3, win0_6.index t a * S1x64x512.size a ≤ (i a).val
      ∧ (i a).val < win0_6.index t a * S1x64x512.size a + S1x64x512.size a := by
  show i ∈ ((View.whole main_v3_0).slice (win0_6.rect t)).set ↔ _
  rw [View.set_slice_whole, Rect.mem_set_unit]
  exact Iff.rfl

/-- Every index of the array is in the block some run's last point writes back: run `r`'s is point `64 r + 63`. -/
theorem cover6 (i : S2x64x512.Idx) :
    ∃ t : Fin cfg0.N, (cfg0.win 6).flush t = true ∧ i ∈ ((cfg0.win 6).blk t).view.set := by
  have hN : cfg0.N = 128 := N_0
  obtain ⟨r, b, d, rfl⟩ : ∃ (r : Fin 2) (b : Fin 64) (d : Fin 512), i = ix3 r b d := ⟨i 0, i 1, i 2, eq_ix3 i⟩
  have hr : r.val < 2 := r.isLt
  have hb : b.val < 64 := b.isLt
  have hd : d.val < 512 := d.isLt
  have hlt : 64 * r.val + 63 < cfg0.N := by omega
  obtain ⟨e0, e1, e2⟩ := idx6 ⟨64 * r.val + 63, hlt⟩
  have e0' : win0_6.index ⟨64 * r.val + 63, hlt⟩ (0 : Fin 3) = r.val := by rw [e0]; show (64 * r.val + 63) / 64 = r.val; omega
  refine ⟨⟨64 * r.val + 63, hlt⟩, (flush0_6 _).mpr (by show (64 * r.val + 63) % 64 = 63; omega), ?_⟩
  rw [mem_blk6]
  intro a
  match a with
  | ⟨0, _⟩ =>
    show win0_6.index ⟨64 * r.val + 63, hlt⟩ (0 : Fin 3) * 1 ≤ r.val ∧ r.val < win0_6.index ⟨64 * r.val + 63, hlt⟩ (0 : Fin 3) * 1 + 1
    omega
  | ⟨1, _⟩ =>
    show win0_6.index ⟨64 * r.val + 63, hlt⟩ (1 : Fin 3) * 64 ≤ b.val ∧ b.val < win0_6.index ⟨64 * r.val + 63, hlt⟩ (1 : Fin 3) * 64 + 64
    omega
  | ⟨2, _⟩ =>
    show win0_6.index ⟨64 * r.val + 63, hlt⟩ (2 : Fin 3) * 512 ≤ d.val ∧ d.val < win0_6.index ⟨64 * r.val + 63, hlt⟩ (2 : Fin 3) * 512 + 512
    omega

/-- The array of sums after the kernel. -/
theorem final6 (c : Dev nD) : (dats m 0 c).arrAt 6 cfg0.N = G6 m c :=
  (dats m 0 c).arrAt_eq_of_cover 6 (G6 m c) (flushed6_eq m c) cover6

/-! ## The array of counts: window 7 -/

/-- `g7` depends on its run, label and last coordinate only through their values. -/
theorem g7_congr (c : Dev nD) (r r' : Fin 2) (b b' : Fin 64) (z z' : Fin 1) (hr : r.val = r'.val) (hb : b.val = b'.val)
    (hz : z.val = z'.val) : g7 m c r b z = g7 m c r' b' z' := by
  obtain rfl := Fin.ext hr
  obtain rfl := Fin.ext hb
  obtain rfl := Fin.ext hz
  rfl

/-- Where window 7's block sits at grid point `t`: block `t / 64` along the runs, block 0 on the other two axes. -/
theorem idx7 : ∀ t : Fin cfg0.N, win0_7.index t (0 : Fin 3) = t.val / 64 ∧ win0_7.index t (1 : Fin 3) = 0
    ∧ win0_7.index t (2 : Fin 3) = 0 :=
  (by decide +kernel : ∀ t : Fin grid0.N, _)

/-- What a run's last point writes back is that point's block of `G7`. -/
theorem flushed7_eq (c : Dev nD) (t : Fin cfg0.N) (hf : (cfg0.win 7).flush t = true) :
    (dats m 0 c).flushed 7 t = ((cfg0.win 7).blk t).view.read (Elt Ideal) (G7 m c) := by
  have h63 : t.val % 64 = 63 := (flush0_7 t).mp hf
  have hN : cfg0.N = 128 := N_0
  have ht : t.val < 128 := by have := t.isLt; omega
  obtain ⟨e0, e1, e2⟩ := idx7 t
  show (cfg0.win 7).cut (grid0.coords t) ((dats m 0 c).after 7 t) = _
  rw [after0_7]
  funext y
  obtain ⟨u, b, z, rfl⟩ : ∃ (u : Fin 1) (b : Fin 64) (z : Fin 1), y = ix3 u b z := ⟨y 0, y 1, y 2, eq_ix3 y⟩
  show (outsAt0 m c t.val t.isLt).2.1 (ix3 u b z) = G7 m c (((cfg0.win 7).blk t).view.emb (ix3 u b z))
  rw [out7_last m c t h63 u b z]
  have hu : u.val = 0 := by omega
  refine Eq.trans ?_ (g7_congr m c ⟨t.val / 64, by omega⟩ _ b _ z _ ?_ ?_ ?_)
  · rfl
  · show t.val / 64 = win0_7.index t (0 : Fin 3) * 1 + 1 * u.val
    omega
  · show b.val = win0_7.index t (1 : Fin 3) * 64 + 1 * b.val
    omega
  · show z.val = win0_7.index t (2 : Fin 3) * 1 + 1 * z.val
    omega

/-- An index of the array is in point `t`'s block iff each coordinate is in the block's range on its axis. -/
theorem mem_blk7 (t : Fin cfg0.N) (i : S2x64x1.Idx) :
    i ∈ ((cfg0.win 7).blk t).view.set ↔ ∀ a : Fin 3, win0_7.index t a * S1x64x1.size a ≤ (i a).val
      ∧ (i a).val < win0_7.index t a * S1x64x1.size a + S1x64x1.size a := by
  show i ∈ ((View.whole main_v3_1).slice (win0_7.rect t)).set ↔ _
  rw [View.set_slice_whole, Rect.mem_set_unit]
  exact Iff.rfl

/-- Every index of the array is in the block some run's last point writes back: run `r`'s is point `64 r + 63`. -/
theorem cover7 (i : S2x64x1.Idx) :
    ∃ t : Fin cfg0.N, (cfg0.win 7).flush t = true ∧ i ∈ ((cfg0.win 7).blk t).view.set := by
  have hN : cfg0.N = 128 := N_0
  obtain ⟨r, b, z, rfl⟩ : ∃ (r : Fin 2) (b : Fin 64) (z : Fin 1), i = ix3 r b z := ⟨i 0, i 1, i 2, eq_ix3 i⟩
  have hr : r.val < 2 := r.isLt
  have hb : b.val < 64 := b.isLt
  have hz : z.val < 1 := z.isLt
  have hlt : 64 * r.val + 63 < cfg0.N := by omega
  obtain ⟨e0, e1, e2⟩ := idx7 ⟨64 * r.val + 63, hlt⟩
  have e0' : win0_7.index ⟨64 * r.val + 63, hlt⟩ (0 : Fin 3) = r.val := by rw [e0]; show (64 * r.val + 63) / 64 = r.val; omega
  refine ⟨⟨64 * r.val + 63, hlt⟩, (flush0_7 _).mpr (by show (64 * r.val + 63) % 64 = 63; omega), ?_⟩
  rw [mem_blk7]
  intro a
  match a with
  | ⟨0, _⟩ =>
    show win0_7.index ⟨64 * r.val + 63, hlt⟩ (0 : Fin 3) * 1 ≤ r.val ∧ r.val < win0_7.index ⟨64 * r.val + 63, hlt⟩ (0 : Fin 3) * 1 + 1
    omega
  | ⟨1, _⟩ =>
    show win0_7.index ⟨64 * r.val + 63, hlt⟩ (1 : Fin 3) * 64 ≤ b.val ∧ b.val < win0_7.index ⟨64 * r.val + 63, hlt⟩ (1 : Fin 3) * 64 + 64
    omega
  | ⟨2, _⟩ =>
    show win0_7.index ⟨64 * r.val + 63, hlt⟩ (2 : Fin 3) * 1 ≤ z.val ∧ z.val < win0_7.index ⟨64 * r.val + 63, hlt⟩ (2 : Fin 3) * 1 + 1
    omega

/-- The array of counts after the kernel. -/
theorem final7 (c : Dev nD) : (dats m 0 c).arrAt 7 cfg0.N = G7 m c :=
  (dats m 0 c).arrAt_eq_of_cover 7 (G7 m c) (flushed7_eq m c) cover7

end Cert.KernelIdeal.Final

end
-- ==== Proof.KTail.lean ====
/-
  The host operations after the kernel, as one function of the two arrays the kernel writes.

  The kernel leaves, per core, a 64 by 512 block of partial sums and a 64 by 1 column of partial counts. The program then
  adds the two cores' blocks, adds the two cores' columns, clips the counts below at one, copies them along the 512
  features and divides. Read at label `b` and feature `d` over the extended reals this is the sum of the two partial sums
  over the larger of the sum of the two partial counts and one.
-/
import proofs.«411606_j73160472920346_4_alg».proof.Proof.Gen.KernelIdeal
import Idealize.ShloMosaic.Lib.Pipeline.Value
import Idealize.ShloMosaic.Lib.ValueIdx
import Idealize.ShloMosaic.PureOps.Ideal.Laws

open scoped BigOperators

noncomputable section

namespace Cert.KernelIdeal.Tail

open Idealize.ShloMosaic Idealize.ShloMosaic.ValueIdx Cert.KernelIdeal Cert.KernelIdeal.Gen

variable {F : FTy → Type} [FloatOps F]

/-- The operations after the kernel, composed: from the per-core sums `A6` and counts `A7` to the program's result. -/
def tail (A6 : Vec F S2x64x512 .f32) (A7 : Vec F S2x64x1 .f32) : Vec F S64x512 .f32 :=
  Host.divf (Host.reduceAdd A6 (constant S_ .f32 0x00000000#32) reducesTo_S2x64x512_S64x512_d0 h_S_)
    (broadcastInDim S64x512 ![0, 1] bcast_S64x1_S64x512_0_1
      (maximumf (Host.reduceAdd A7 (constant S_ .f32 0x00000000#32) reducesTo_S2x64x1_S64x1_d0 h_S_)
        (broadcastInDim S64x1 ![] bcast_S_S64x1 (constant S_ .f32 0x3F800000#32))))

/-- Over entry `(i, j)` of the reduced array, the source index with the leading coordinate `c` put back is `(c, i, j)`. -/
theorem lift_lead {m a b : ℕ} (h : (⟨3, ![m, a, b]⟩ : Shape).Reduces [0] ⟨2, ![a, b]⟩) (i : Fin a) (j : Fin b) (c : Fin m) :
    h.lift (ix2 i j) c = ix3 c i j := by
  funext ax
  refine Fin.ext ?_
  match ax with
  | ⟨0, _⟩ => rfl
  | ⟨1, _⟩ => rfl
  | ⟨2, _⟩ => rfl

/-- The host's sum over the leading axis of an `[m, a, b]` array, read at `(i, j)`: the initial value plus the `m`
    entries above `(i, j)`. -/
theorem hostSum_lead_apply {m a b : ℕ} (x : (⟨3, ![m, a, b]⟩ : Shape).Idx → EReal)
    (h' : (⟨3, ![m, a, b]⟩ : Shape).ReducesTo [0] ⟨2, ![a, b]⟩) (h : (⟨3, ![m, a, b]⟩ : Shape).Reduces [0] ⟨2, ![a, b]⟩)
    (init : EReal) (i : Fin a) (j : Fin b) :
    Ideal.hostReduceAdd h' x init (ix2 i j) = init + ∑ c : Fin m, x (ix3 c i j) :=
  (Ideal.hostReduceAdd_single h' h x init (ix2 i j)).trans
    (congrArg (init + ·) (Finset.sum_congr rfl fun c _ => congrArg x (lift_lead h i j c)))

/-- The two cores' partial sums added, at `(b, d)`. -/
theorem sums_apply (A6 : Vec Ideal S2x64x512 .f32) (b : Fin 64) (d : Fin 512) :
    Host.reduceAdd A6 (constant (F := Ideal) S_ .f32 0x00000000#32) reducesTo_S2x64x512_S64x512_d0 h_S_ (ix2 b d)
      = ∑ c : Fin 2, A6 (ix3 c b d) := by
  show Ideal.hostReduceAdd reducesTo_S2x64x512_S64x512_d0 A6 (Ideal.ofBits .f32 0x00000000#32) (ix2 b d) = _
  rw [Ideal.ofBits_zero_f32]
  exact (hostSum_lead_apply A6 reducesTo_S2x64x512_S64x512_d0 (by decide) 0 b d).trans (zero_add _)

/-- The two cores' partial counts added, at `(b, z)`. -/
theorem counts_apply (A7 : Vec Ideal S2x64x1 .f32) (b : Fin 64) (z : Fin 1) :
    Host.reduceAdd A7 (constant (F := Ideal) S_ .f32 0x00000000#32) reducesTo_S2x64x1_S64x1_d0 h_S_ (ix2 b z)
      = ∑ c : Fin 2, A7 (ix3 c b z) := by
  show Ideal.hostReduceAdd reducesTo_S2x64x1_S64x1_d0 A7 (Ideal.ofBits .f32 0x00000000#32) (ix2 b z) = _
  rw [Ideal.ofBits_zero_f32]
  exact (hostSum_lead_apply A7 reducesTo_S2x64x1_S64x1_d0 (by decide) 0 b z).trans (zero_add _)

/-- The column of clipped counts copied along the features, at `(b, d)`: the larger of label `b`'s count and one. -/
theorem clipped_apply (A7 : Vec Ideal S2x64x1 .f32) (b : Fin 64) (d : Fin 512) :
    broadcastInDim S64x512 ![0, 1] bcast_S64x1_S64x512_0_1
        (maximumf (Host.reduceAdd A7 (constant (F := Ideal) S_ .f32 0x00000000#32) reducesTo_S2x64x1_S64x1_d0 h_S_)
          (broadcastInDim S64x1 ![] bcast_S_S64x1 (constant (F := Ideal) S_ .f32 0x3F800000#32))) (ix2 b d)
      = max (∑ c : Fin 2, A7 (ix3 c b (0 : Fin 1))) 1 := by
  refine (broadcastInDim_apply _ bcast_S64x1_S64x512_0_1 _ (ix2 b d) (ix2 b (0 : Fin 1)) fun ax => ?_).trans ?_
  · match ax with
    | ⟨0, _⟩ =>
      show b.val = if (64 : ℕ) = 1 then 0 else b.val
      rw [if_neg (by decide)]
    | ⟨1, _⟩ =>
      show (0 : ℕ) = if (1 : ℕ) = 1 then 0 else d.val
      rw [if_pos rfl]
  · refine congrArg₂ max (counts_apply A7 b 0) ?_
    refine (broadcastInDim_apply _ bcast_S_S64x1 _ (ix2 b (0 : Fin 1)) ix0 fun ax => ax.elim0).trans ?_
    exact IdealRules.sign_bit.ideal_onePat .f32

/-- Read at `(b, d)`: the two cores' sums added, over the two cores' counts added and clipped below at one. -/
theorem tail_apply (A6 : Vec Ideal S2x64x512 .f32) (A7 : Vec Ideal S2x64x1 .f32) (b : Fin 64) (d : Fin 512) :
    tail (F := Ideal) A6 A7 (ix2 b d)
      = Ideal.div (∑ c : Fin 2, A6 (ix3 c b d)) (max (∑ c : Fin 2, A7 (ix3 c b (0 : Fin 1))) 1) := by
  unfold tail
  exact congrArg₂ Ideal.div (sums_apply A6 b d) (clipped_apply A7 b d)

end Cert.KernelIdeal.Tail

end
-- ==== Proof.KMain.lean ====
/-
  The kernel program's run, read as values.

  The program reshapes the labels and the biases, runs the kernel over its grid of 128 points, and then adds the two
  runs' partial sums and partial counts and divides. Its result is the host tail applied to the two arrays the kernel
  ends with; over the extended reals, the two runs of 64 blocks together cover every point once, so the tail of those
  arrays is the pooled array of the arguments.
-/
import proofs.«411606_j73160472920346_4_alg».proof.Proof.KFinal
import proofs.«411606_j73160472920346_4_alg».proof.Proof.KTail
import proofs.«411606_j73160472920346_4_alg».proof.Proof.Gen.KernelIdeal.Frame
import Idealize.ShloMosaic.Lib.Pipeline.Value
import Idealize.ShloMosaic.Lib.StableHlo.Run

open scoped BigOperators

noncomputable section

namespace Cert.KernelIdeal.RunValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Accum Cert.KernelIdeal.Final Cert.SegPool

section AnyInstance

variable {F : FTy → Type} [FloatOps F]
variable (m : (ℓ : Loc nD τ sig) → Buf (Elt F) ℓ) (ρ : Dev nD → PrngReg)

/-- The program's result buffer after the operations that follow the kernel: the host tail of the two arrays the
    kernel's output windows wrote. -/
theorem tail_value (c : Dev nD) :
    Pipeline.afterTail₀ cfgs (dats m) 0 (V0 m) [hostOps1] c main_v9
      = Tail.tail ((dats m 0 c).arrAt 6 cfg0.N) ((dats m 0 c).arrAt 7 cfg0.N) := by
  unfold Pipeline.afterTail₀
  show StableHlo.after hostOps1 _ (Proc.devRef .tc main_v9) = _
  after_results
  rw [Pipeline.withArrays_arr spec0 launch0.win.arr_inj c _ _ 6, Pipeline.withArrays_arr spec0 launch0.win.arr_inj c _ _ 7]
  rfl

/-- Every weakly fair execution of the program ends with its result at that tail and its six arguments unchanged. -/
theorem run : θ_run defs (onTc (τ := τ) (main (F := F))) ⟨m, fun _ => 0, ρ⟩ (fun r => ∀ c : Dev nD,
      r.2.mem ((c.tc : Thread nD τ).loc main_v9) = Tail.tail ((dats m 0 c).arrAt 6 cfg0.N) ((dats m 0 c).arrAt 7 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v9 (Pipeline.mem_restRefs_of main_v9 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end AnyInstance

section AtIdeal

variable (m : (ℓ : Loc nD τ sig) → Buf (Elt Ideal) ℓ)

theorem addS_apply (c : Dev nD) (n : ℕ) (b : Fin 64) (d : Fin 512) :
    addS m c n (ix2 b d) = blockSeg (arr1 m c) (featOf m c d) b n := rfl

theorem addC_apply (c : Dev nD) (n : ℕ) (b : Fin 64) (z : Fin 1) :
    addC m c n (ix2 b z) = blockSeg (arr1 m c) (fun _ => 1) b n := rfl

/-- The tail of the kernel's two arrays is the pooled array of the arguments: the two runs' block shares add up to
    each segment's sum and count. -/
theorem result_eq (c : Dev nD) :
    Tail.tail (F := Ideal) ((dats m 0 c).arrAt 6 cfg0.N) ((dats m 0 c).arrAt 7 cfg0.N)
      = pooled (arr0 m c) (arr1 m c) (arr2 m c) (arr3 m c) (arr4 m c) (arr5 m c) := by
  rw [final6 m c, final7 m c]
  funext i
  obtain ⟨b, d, rfl⟩ : ∃ (b : Fin 64) (d : Fin 512), i = ix2 b d := ⟨i 0, i 1, eq_ix2 i⟩
  rw [Tail.tail_apply]
  show Ideal.div (∑ r : Fin 2, g6 m c r b d) (max (∑ r : Fin 2, g7 m c r b (0 : Fin 1)) 1)
    = Ideal.div (segSum (arr1 m c) (fun n => feat (arr0 m c) (arr2 m c) (arr3 m c) (arr4 m c) (arr5 m c) n d) b)
        (max (segSum (arr1 m c) (fun _ => 1) b) 1)
  unfold g6 g7
  simp only [zero_add, addS_apply, addC_apply]
  unfold blockSeg
  rw [sum_blocks, sum_blocks]
  rfl

end AtIdeal

end Cert.KernelIdeal.RunValue

end
-- ==== Proof.LibSegmentScatter.lean ====
/-
  An accumulating scatter along axis 0, read at one element of its result over the extended reals.

  Two shapes that a segment sum lowers to. ROWS: the operand is `[B, D]`, the scatter indices a column `[N, 1]`, the
  updates `[N, D]`; update row `n` is added into operand row `idx n`, column by column. ELEMENTS: the operand is `[B]`,
  the scatter indices `[N, 1]`, the updates `[N]`; update `n` is added into element `idx n`. The index is read signed and
  not clamped, and an update whose index falls outside `[0, B)` is dropped. So the result at row `b` is the operand there
  plus the sum of the updates whose index is `b`.

  The dimension numbers are spelt field by field as a printed program's record is, so that record is one of these by `rfl`.
-/
import Idealize.ShloMosaic.PureOps.Ideal
import Idealize.ShloMosaic.Lib.ValueIdx
import Idealize.ShloMosaic.Lib.ValueIdxRank1

open scoped BigOperators

noncomputable section

namespace Idealize.ShloMosaic.SegmentScatter

open Idealize.ShloMosaic Idealize.ShloMosaic.ValueIdx

/-- The dimension numbers of a row scatter: operand `[B, D]`, scatter indices `[N, 1]`, updates `[N, D]`. -/
abbrev rowDims (B D N : Nat)
    (wf : ScatterDims.WF ⟨2, ![B, D]⟩ ⟨2, ![N, 1]⟩ ⟨2, ![N, D]⟩ [1] [0] [0] 1) :
    ScatterDims ⟨2, ![B, D]⟩ ⟨2, ![N, 1]⟩ ⟨2, ![N, D]⟩ where
  updateWindowDims := [1]
  insertedWindowDims := [0]
  scatterDimsToOperandDims := [0]
  indexVectorDim := 1
  wf := wf

/-! ### Rows: start, window and landing index of update `(n, d')` -/

section Rows
variable {B D N w : Nat} (wf : ScatterDims.WF ⟨2, ![B, D]⟩ ⟨2, ![N, 1]⟩ ⟨2, ![N, D]⟩ [1] [0] [0] 1)
  (idx : IVec ⟨2, ![N, 1]⟩ w)

/-- On axis 0 the window of update `(n, d')` starts at the signed value of scatter index `(n, 0)`. -/
theorem row_start0 (n : Fin N) (d' : Fin D) :
    (rowDims B D N wf).start (ix2 n d') idx 0 = (idx (ix2 n (0 : Fin 1))).toInt := by
  unfold ScatterDims.start
  rw [dif_pos (show (0 : Fin 2) ∈ (rowDims B D N wf).scatterDimsToOperandDims from List.mem_singleton.mpr rfl)]
  have hsi : (rowDims B D N wf).siIdx (ix2 n d') ⟨List.idxOf (0 : Fin 2) (rowDims B D N wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- Axis 1 is not named by the scatter-dims-to-operand-dims map, so the window starts at `0` there. -/
theorem row_start1 (j : (⟨2, ![N, D]⟩ : Shape).Idx) :
    (rowDims B D N wf).start j idx 1 = 0 := by
  unfold ScatterDims.start
  rw [dif_neg (show (1 : Fin 2) ∉ ([0] : List (Fin 2)) by decide)]

/-- Axis 0 is an inserted window axis: the window coordinate there is `0`. -/
theorem row_window0 (j : (⟨2, ![N, D]⟩ : Shape).Idx) :
    (rowDims B D N wf).window j 0 = 0 := by
  unfold ScatterDims.window
  have h : (0 : Fin 2) ∉ (rowDims B D N wf).sKept := (show (0 : Fin 2) ∉ ([1] : List (Fin 2)) by decide)
  rw [dif_neg h]

/-- Axis 1 is the one kept axis, read by update window axis 1: the window coordinate of `(n, d')` is `d'`. -/
theorem row_window1 (n : Fin N) (d' : Fin D) :
    (rowDims B D N wf).window (ix2 n d') 1 = d'.val := by
  unfold ScatterDims.window
  have h : (1 : Fin 2) ∈ (rowDims B D N wf).sKept := (show (1 : Fin 2) ∈ ([1] : List (Fin 2)) by decide)
  rw [dif_pos h]
  rfl

/-- Update `(n, d')` lands at `(b, d)` exactly when its scatter index, read signed, is `b` and `d' = d`; the range
    conditions then hold because `b < B` and `d < D`. -/
theorem row_resultIdx?_eq_some_iff (n : Fin N) (d' : Fin D) (b : Fin B) (d : Fin D) :
    (rowDims B D N wf).resultIdx? (ix2 n d') idx = some (ix2 b d)
      ↔ (idx (ix2 n (0 : Fin 1))).toInt = (b.val : ℤ) ∧ d' = d := by
  unfold ScatterDims.resultIdx?
  constructor
  · intro h
    split at h
    · rename_i hc
      have hf := Option.some.inj h
      have h0 := congrArg (fun f => (f 0).val) hf
      have h1 := congrArg (fun f => (f 1).val) hf
      simp only [row_start0, row_start1, row_window0, row_window1] at h0 h1
      have hc0 := (hc 0).1
      rw [row_start0, row_window0] at hc0
      change ((idx (ix2 n (0 : Fin 1))).toInt + ((0 : ℕ) : ℤ)).toNat = b.val at h0
      change ((0 : ℤ) + (d'.val : ℤ)).toNat = d.val at h1
      refine ⟨by omega, Fin.ext (by omega)⟩
    · exact absurd h (by simp)
  · rintro ⟨ht, rfl⟩
    have hc : ∀ a, 0 ≤ (rowDims B D N wf).start (ix2 n d') idx a + (rowDims B D N wf).window (ix2 n d') a ∧
        (rowDims B D N wf).start (ix2 n d') idx a + (rowDims B D N wf).window (ix2 n d') a
          < (⟨2, ![B, D]⟩ : Shape).size a := by
      intro a
      match a with
      | ⟨0, _⟩ =>
        change 0 ≤ (rowDims B D N wf).start (ix2 n d') idx 0 + ((rowDims B D N wf).window (ix2 n d') 0 : ℕ) ∧
          (rowDims B D N wf).start (ix2 n d') idx 0 + ((rowDims B D N wf).window (ix2 n d') 0 : ℕ) < (B : ℤ)
        rw [row_start0, row_window0, ht]
        have := b.isLt
        omega
      | ⟨1, _⟩ =>
        change 0 ≤ (rowDims B D N wf).start (ix2 n d') idx 1 + ((rowDims B D N wf).window (ix2 n d') 1 : ℕ) ∧
          (rowDims B D N wf).start (ix2 n d') idx 1 + ((rowDims B D N wf).window (ix2 n d') 1 : ℕ) < (D : ℤ)
        rw [row_start1, row_window1]
        have := d'.isLt
        omega
    rw [dif_pos hc]
    congr 1
    funext a; refine Fin.ext ?_
    match a with
    | ⟨0, _⟩ =>
      change ((rowDims B D N wf).start (ix2 n d') idx 0 + ((rowDims B D N wf).window (ix2 n d') 0 : ℕ)).toNat = b.val
      rw [row_start0, row_window0, ht]; omega
    | ⟨1, _⟩ =>
      change ((rowDims B D N wf).start (ix2 n d') idx 1 + ((rowDims B D N wf).window (ix2 n d') 1 : ℕ)).toNat = d'.val
      rw [row_start1, row_window1]; omega

end Rows

/-- A row scatter-add read at `(b, d)`: the operand there plus column `d` of every update row whose index is `b`. -/
theorem rowScatterAdd_apply {B D N w : Nat}
    (wf : ScatterDims.WF ⟨2, ![B, D]⟩ ⟨2, ![N, 1]⟩ ⟨2, ![N, D]⟩ [1] [0] [0] 1)
    (x : (⟨2, ![B, D]⟩ : Shape).Idx → EReal) (idx : IVec ⟨2, ![N, 1]⟩ w) (upd : (⟨2, ![N, D]⟩ : Shape).Idx → EReal)
    (b : Fin B) (d : Fin D) :
    Ideal.hostScatterAdd (rowDims B D N wf) x idx upd (ix2 b d)
      = x (ix2 b d) + ∑ n : Fin N, if (idx (ix2 n (0 : Fin 1))).toInt = (b.val : ℤ) then upd (ix2 n d) else 0 := by
  unfold Ideal.hostScatterAdd
  congr 1
  rw [Finset.sum_filter]
  refine (sum_idx2 _).trans ?_
  refine Finset.sum_congr rfl fun n _ => ?_
  simp only [row_resultIdx?_eq_some_iff]
  by_cases ht : (idx (ix2 n (0 : Fin 1))).toInt = (b.val : ℤ)
  · simp only [ht, true_and, if_true]
    rw [Finset.sum_ite_eq' Finset.univ d (fun d' => upd (ix2 n d'))]
    simp
  · simp only [ht, false_and, if_false]
    exact Finset.sum_const_zero

/-- The dimension numbers of an element scatter: operand `[B]`, scatter indices `[N, 1]`, updates `[N]`. -/
abbrev elemDims (B N : Nat)
    (wf : ScatterDims.WF ⟨1, ![B]⟩ ⟨2, ![N, 1]⟩ ⟨1, ![N]⟩ [] [0] [0] 1) :
    ScatterDims ⟨1, ![B]⟩ ⟨2, ![N, 1]⟩ ⟨1, ![N]⟩ where
  updateWindowDims := []
  insertedWindowDims := [0]
  scatterDimsToOperandDims := [0]
  indexVectorDim := 1
  wf := wf

/-! ### Elements: start, window and landing index of update `n` -/

section Elements
variable {B N w : Nat} (wf : ScatterDims.WF ⟨1, ![B]⟩ ⟨2, ![N, 1]⟩ ⟨1, ![N]⟩ [] [0] [0] 1)
  (idx : IVec ⟨2, ![N, 1]⟩ w)

/-- The window of update `n` starts at the signed value of scatter index `(n, 0)`. -/
theorem elem_start0 (n : Fin N) :
    (elemDims B N wf).start (ix1 n) idx 0 = (idx (ix2 n (0 : Fin 1))).toInt := by
  unfold ScatterDims.start
  rw [dif_pos (show (0 : Fin 1) ∈ (elemDims B N wf).scatterDimsToOperandDims from List.mem_singleton.mpr rfl)]
  have hsi : (elemDims B N wf).siIdx (ix1 n) ⟨List.idxOf (0 : Fin 1) (elemDims B N wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- The operand's one axis is an inserted window axis: the window coordinate is `0`. -/
theorem elem_window0 (j : (⟨1, ![N]⟩ : Shape).Idx) :
    (elemDims B N wf).window j 0 = 0 := by
  unfold ScatterDims.window
  have h : (0 : Fin 1) ∉ (elemDims B N wf).sKept := (show (0 : Fin 1) ∉ ([] : List (Fin 1)) from List.not_mem_nil)
  rw [dif_neg h]

/-- Update `n` lands at `b` exactly when its scatter index, read signed, is `b`. -/
theorem elem_resultIdx?_eq_some_iff (n : Fin N) (b : Fin B) :
    (elemDims B N wf).resultIdx? (ix1 n) idx = some (ix1 b)
      ↔ (idx (ix2 n (0 : Fin 1))).toInt = (b.val : ℤ) := by
  unfold ScatterDims.resultIdx?
  constructor
  · intro h
    split at h
    · rename_i hc
      have hf := Option.some.inj h
      have h0 := congrArg (fun f => (f 0).val) hf
      have hc0 := (hc 0).1
      rw [elem_start0, elem_window0] at hc0
      simp only [elem_start0, elem_window0] at h0
      change ((idx (ix2 n (0 : Fin 1))).toInt + ((0 : ℕ) : ℤ)).toNat = b.val at h0
      omega
    · exact absurd h (by simp)
  · intro ht
    have hc : ∀ a, 0 ≤ (elemDims B N wf).start (ix1 n) idx a + (elemDims B N wf).window (ix1 n) a ∧
        (elemDims B N wf).start (ix1 n) idx a + (elemDims B N wf).window (ix1 n) a
          < (⟨1, ![B]⟩ : Shape).size a := by
      intro a
      match a with
      | ⟨0, _⟩ =>
        change 0 ≤ (elemDims B N wf).start (ix1 n) idx 0 + ((elemDims B N wf).window (ix1 n) 0 : ℕ) ∧
          (elemDims B N wf).start (ix1 n) idx 0 + ((elemDims B N wf).window (ix1 n) 0 : ℕ) < (B : ℤ)
        rw [elem_start0, elem_window0, ht]
        have := b.isLt
        omega
    rw [dif_pos hc]
    congr 1
    funext a; refine Fin.ext ?_
    match a with
    | ⟨0, _⟩ =>
      change ((elemDims B N wf).start (ix1 n) idx 0 + ((elemDims B N wf).window (ix1 n) 0 : ℕ)).toNat = b.val
      rw [elem_start0, elem_window0, ht]; omega

end Elements

/-- An element scatter-add read at `b`: the operand there plus every update whose index is `b`. -/
theorem elemScatterAdd_apply {B N w : Nat}
    (wf : ScatterDims.WF ⟨1, ![B]⟩ ⟨2, ![N, 1]⟩ ⟨1, ![N]⟩ [] [0] [0] 1)
    (x : (⟨1, ![B]⟩ : Shape).Idx → EReal) (idx : IVec ⟨2, ![N, 1]⟩ w) (upd : (⟨1, ![N]⟩ : Shape).Idx → EReal)
    (b : Fin B) :
    Ideal.hostScatterAdd (elemDims B N wf) x idx upd (ix1 b)
      = x (ix1 b) + ∑ n : Fin N, if (idx (ix2 n (0 : Fin 1))).toInt = (b.val : ℤ) then upd (ix1 n) else 0 := by
  unfold Ideal.hostScatterAdd
  congr 1
  rw [Finset.sum_filter]
  refine (Equiv.sum_comp (idxEquiv1 (n := N)).symm _).symm.trans ?_
  refine Finset.sum_congr rfl fun n _ => ?_
  change (if (elemDims B N wf).resultIdx? (ix1 n) idx = some (ix1 b) then upd (ix1 n) else 0) = _
  simp only [elem_resultIdx?_eq_some_iff]

end Idealize.ShloMosaic.SegmentScatter

end
-- ==== Proof.RefValue.lean ====
/-
  The reference program's result is the pooled array.

  Read one operation at a time, the reference computes, for every point, the two layers (a product with a matrix as a sum
  over the contracted axis, a bias broadcast along the rows, a maximum with zero), then adds every point's feature row
  into the row of a 64 by 512 array of zeros that the point's label names, adds a one per point into a 64-vector of zeros
  the same way, and divides the first by the second clipped below at one. An accumulating scatter read at an element is
  the sum of the updates whose index lands there; a label read signed that lies in [0, 64) is the 32-bit word of that
  number, and a label outside lands nowhere. So the result is the segment sums over the clipped counts.
-/
import proofs.«411606_j73160472920346_4_alg».proof.Proof.Gen.ReferenceIdeal.Read
import proofs.«411606_j73160472920346_4_alg».proof.Proof.Spec
import proofs.«411606_j73160472920346_4_alg».proof.Proof.LibSegmentScatter
import Idealize.ShloMosaic.Lib.ValueIdx
import Idealize.ShloMosaic.PureOps.Ideal.Laws
import Idealize.ShloMosaic.PureOps.IdealRules
import Idealize.ShloMosaic.Lib.StableHlo.Predicate

open scoped BigOperators

noncomputable section

namespace Cert.ReferenceIdeal.RefValue

open Idealize.ShloMosaic Idealize.ShloMosaic.ValueIdx Cert.ReferenceIdeal Cert.ReferenceIdeal.Gen Cert.SegPool

/-- A 32-bit word read signed equals a small natural exactly when it is that natural's word. -/
theorem toInt_eq_iff (w : BitVec 32) (b : ℕ) (hb : b < 2 ^ 31) :
    w.toInt = (b : ℤ) ↔ w = BitVec.ofNat 32 b := by
  constructor
  · intro h
    apply BitVec.eq_of_toInt_eq
    rw [h, StableHlo.Predicate.toInt_ofNat_small b hb]
  · rintro rfl
    exact StableHlo.Predicate.toInt_ofNat_small b hb

/-- The all-zero pattern is the number zero. -/
theorem zero_f32 : FloatOps.ofBits (F := Ideal) .f32 0x00000000#32 = 0 := by
  rw [Ideal.ofBits_def]; exact Ideal.ofBits_zero_f32

/-- The pattern of 1.0 is the number one. -/
theorem one_f32 : FloatOps.ofBits (F := Ideal) .f32 0x3F800000#32 = 1 := by
  rw [Ideal.ofBits_def]; exact IdealRules.sign_bit.ideal_onePat .f32

/-- The first layer read at point `n`, feature `k`. -/
theorem v4_eq_hidRow (x0 : (⟨S524288x4, .f32⟩ : BufTy).Contents (Elt Ideal)) (x2 : (⟨S4x64, .f32⟩ : BufTy).Contents (Elt Ideal))
    (x3 : (⟨S64, .f32⟩ : BufTy).Contents (Elt Ideal)) (n : Fin 524288) (k : Fin 64) :
    Read.val_main_v4 (F := Ideal) x0 x2 x3 (ix2 n k)
      = hidRow (fun q => x0 (ix2 n q)) x2 (fun e => x3 (ix1 e)) k := by
  rw [Read.val_main_v4_apply, Read.val_main_v3_apply, Read.val_main_v0_apply, Read.val_main_v2_apply,
    Read.val_main_v1_apply, Read.val_main_call0_v0_apply, Read.val_main_call0_cst_apply, zero_f32,
    Ideal.addf_def, Ideal.maximumf_def]
  have el : ∀ q : Fin 4, Read.lidx_main_v0 (ix2 n k) q = ix2 n q := fun q =>
    funext fun a => Fin.ext (by match a with | ⟨0, _⟩ => rfl | ⟨1, _⟩ => rfl)
  have er : ∀ q : Fin 4, Read.ridx_main_v0 (ix2 n k) q = ix2 q k := fun q =>
    funext fun a => Fin.ext (by match a with | ⟨0, _⟩ => rfl | ⟨1, _⟩ => rfl)
  have eb : Read.idx_main_v1 (Read.idx_main_v2 (ix2 n k)) = ix1 k :=
    funext fun a => Fin.ext (by match a with | ⟨0, _⟩ => rfl)
  simp only [el, er, eb]
  rfl

/-- The second layer read at point `n`, feature `d`: the point's feature. -/
theorem v9_eq_feat (x0 : (⟨S524288x4, .f32⟩ : BufTy).Contents (Elt Ideal)) (x2 : (⟨S4x64, .f32⟩ : BufTy).Contents (Elt Ideal))
    (x3 : (⟨S64, .f32⟩ : BufTy).Contents (Elt Ideal)) (x4 : (⟨S64x512, .f32⟩ : BufTy).Contents (Elt Ideal))
    (x5 : (⟨S512, .f32⟩ : BufTy).Contents (Elt Ideal)) (n : Fin 524288) (d : Fin 512) :
    Read.val_main_v9 (F := Ideal) x0 x2 x3 x4 x5 (ix2 n d) = feat x0 x2 x3 x4 x5 n d := by
  rw [Read.val_main_v9_apply, Read.val_main_v8_apply, Read.val_main_v5_apply, Read.val_main_v7_apply,
    Read.val_main_v6_apply, Read.val_main_call1_v0_apply, Read.val_main_call1_cst_apply, zero_f32,
    Ideal.addf_def, Ideal.maximumf_def]
  have el : ∀ k : Fin 64, Read.lidx_main_v5 (ix2 n d) k = ix2 n k := fun k =>
    funext fun a => Fin.ext (by match a with | ⟨0, _⟩ => rfl | ⟨1, _⟩ => rfl)
  have er : ∀ k : Fin 64, Read.ridx_main_v5 (ix2 n d) k = ix2 k d := fun k =>
    funext fun a => Fin.ext (by match a with | ⟨0, _⟩ => rfl | ⟨1, _⟩ => rfl)
  have eb : Read.idx_main_v6 (Read.idx_main_v7 (ix2 n d)) = ix1 d :=
    funext fun a => Fin.ext (by match a with | ⟨0, _⟩ => rfl)
  simp only [el, er, eb, v4_eq_hidRow]
  rfl

/-- The row scatter of the program, read at row `b`, column `d`, for any operands. -/
theorem rowScatter_read (x : FVec Ideal S64x512 .f32) (idx : IVec S524288x1 32)
    (upd : FVec Ideal S524288x512 .f32) (b : Fin 64) (d : Fin 512) :
    Host.scatterAdd (F := Ideal) (φ := .f32) scatter_S64x512_S524288x1_S524288x512_1_0_0_1 x idx upd (ix2 b d)
      = x (ix2 b d) + ∑ n : Fin 524288, if (idx (ix2 n (0 : Fin 1))).toInt = (b.val : ℤ) then upd (ix2 n d) else 0 := by
  have hd : scatter_S64x512_S524288x1_S524288x512_1_0_0_1
      = SegmentScatter.rowDims 64 512 524288 Facts₀.scatter_S64x512_S524288x1_S524288x512_1_0_0_1_wf := rfl
  unfold Host.scatterAdd
  rw [Ideal.hostScatterAdd_def, hd]
  exact SegmentScatter.rowScatterAdd_apply _ x idx upd b d

/-- The element scatter of the program, read at element `b`, for any operands. -/
theorem elemScatter_read (x : FVec Ideal S64 .f32) (idx : IVec S524288x1 32)
    (upd : FVec Ideal S524288 .f32) (b : Fin 64) :
    Host.scatterAdd (F := Ideal) (φ := .f32) scatter_S64_S524288x1_S524288_n_0_0_1 x idx upd (ix1 b)
      = x (ix1 b) + ∑ n : Fin 524288, if (idx (ix2 n (0 : Fin 1))).toInt = (b.val : ℤ) then upd (ix1 n) else 0 := by
  have hd : scatter_S64_S524288x1_S524288_n_0_0_1
      = SegmentScatter.elemDims 64 524288 Facts₀.scatter_S64_S524288x1_S524288_n_0_0_1_wf := rfl
  unfold Host.scatterAdd
  rw [Ideal.hostScatterAdd_def, hd]
  exact SegmentScatter.elemScatterAdd_apply _ x idx upd b

/-- The accumulated feature rows read at label `b`, feature `d`: the segment's sum of that feature. -/
theorem v12_eq_segSum (x0 : (⟨S524288x4, .f32⟩ : BufTy).Contents (Elt Ideal)) (x1 : (⟨S524288, .i32⟩ : BufTy).Contents (Elt Ideal))
    (x2 : (⟨S4x64, .f32⟩ : BufTy).Contents (Elt Ideal)) (x3 : (⟨S64, .f32⟩ : BufTy).Contents (Elt Ideal))
    (x4 : (⟨S64x512, .f32⟩ : BufTy).Contents (Elt Ideal)) (x5 : (⟨S512, .f32⟩ : BufTy).Contents (Elt Ideal))
    (b : Fin 64) (d : Fin 512) :
    Read.val_main_v12 (F := Ideal) x0 x1 x2 x3 x4 x5 (ix2 b d)
      = segSum x1 (fun n => feat x0 x2 x3 x4 x5 n d) b := by
  unfold Read.val_main_v12
  rw [rowScatter_read, Read.val_main_v10_apply, Read.val_main_cst_apply, zero_f32, zero_add]
  unfold segSum
  refine Finset.sum_congr rfl fun n _ => ?_
  have ei : Read.idx_main_v11 (ix2 n (0 : Fin 1)) = ix1 n :=
    funext fun a => Fin.ext (by match a with | ⟨0, _⟩ => rfl)
  rw [Read.val_main_v11_apply, ei, v9_eq_feat]
  exact if_congr (toInt_eq_iff _ _ (by have := b.isLt; omega)) rfl rfl

/-- The accumulated ones read at label `b`: the number of points in the segment. -/
theorem v16_eq_segSum (x1 : (⟨S524288, .i32⟩ : BufTy).Contents (Elt Ideal)) (b : Fin 64) :
    Read.val_main_v16 (F := Ideal) x1 (ix1 b) = segSum x1 (fun _ => 1) b := by
  unfold Read.val_main_v16
  rw [elemScatter_read, Read.val_main_v14_apply, Read.val_main_cst_1_apply, zero_f32, zero_add]
  unfold segSum
  refine Finset.sum_congr rfl fun n _ => ?_
  have ei : Read.idx_main_v15 (ix2 n (0 : Fin 1)) = ix1 n :=
    funext fun a => Fin.ext (by match a with | ⟨0, _⟩ => rfl)
  rw [Read.val_main_v15_apply, ei, Read.val_main_v13_apply, Read.val_main_cst_0_apply, one_f32]
  exact if_congr (toInt_eq_iff _ _ (by have := b.isLt; omega)) rfl rfl

/-- The reference's result, as a function of its six argument arrays, is the pooled array. -/
theorem ref_eq_pooled (x0 : (⟨S524288x4, .f32⟩ : BufTy).Contents (Elt Ideal)) (x1 : (⟨S524288, .i32⟩ : BufTy).Contents (Elt Ideal))
    (x2 : (⟨S4x64, .f32⟩ : BufTy).Contents (Elt Ideal)) (x3 : (⟨S64, .f32⟩ : BufTy).Contents (Elt Ideal))
    (x4 : (⟨S64x512, .f32⟩ : BufTy).Contents (Elt Ideal)) (x5 : (⟨S512, .f32⟩ : BufTy).Contents (Elt Ideal)) :
    Cert.ReferenceIdeal.Read.val_main_v21 (F := Ideal) x0 x1 x2 x3 x4 x5 = pooled x0 x1 x2 x3 x4 x5 := by
  funext i
  obtain ⟨b, d, rfl⟩ : ∃ (b : Fin 64) (d : Fin 512), i = ix2 b d := ⟨i 0, i 1, eq_ix2 i⟩
  have ec : Read.idx_main_v19 (Read.idx_main_v20 (ix2 b d)) = ix1 b :=
    funext fun a => Fin.ext (by match a with | ⟨0, _⟩ => rfl)
  rw [Read.val_main_v21_apply, Ideal.hostDivf_def, v12_eq_segSum, Read.val_main_v20_apply,
    Read.val_main_v19_apply, Read.val_main_v18_apply, ec, v16_eq_segSum, Read.val_main_v17_apply,
    Read.val_main_cst_2_apply, one_f32, Ideal.maximumf_def]
  rfl

end Cert.ReferenceIdeal.RefValue

end
-- ==== Proof.lean ====
/-
  Segment mean pooling after a two-layer perceptron: the kernel program and the reference compute the same array over
  the extended reals.

  Both programs send every one of 524288 points through the same two layers (a product with a matrix, a bias, a maximum
  with zero, twice) and pool the resulting 512 features over the points that carry each of 64 labels: the sum of the
  feature over a label's points, divided by the larger of the number of those points and one. The reference adds each
  point's feature row into the row of an array of zeros that its label names. The kernel walks the points in 128 blocks of
  4096, two runs of 64 blocks; in each block it multiplies the block's features on the left by the 0/1 matrix of "point j
  carries label b", adds the product into an accumulator that it resets at the start of each run, and hands the
  accumulator out at the end of the run; the two runs' results are added afterwards. Over the extended reals addition is
  commutative and associative, one times a number is the number and zero times a number is zero, so a label's sum over
  all points is the sum over the blocks of the label's sums inside each block, in any grouping; no step needs the inputs
  to be finite. The first layer's four-term sum written out in the kernel is the reference's sum over the contracted
  axis, and a change of float format is the identity.
-/
import proofs.«411606_j73160472920346_4_alg».proof.Defs
import proofs.«411606_j73160472920346_4_alg».proof.Proof.Gen.Kernel
import proofs.«411606_j73160472920346_4_alg».proof.Proof.Gen.Kernel.Skeleton
import proofs.«411606_j73160472920346_4_alg».proof.Proof.Gen.Kernel.Launch
import proofs.«411606_j73160472920346_4_alg».proof.Proof.Gen.Kernel.Points
import proofs.«411606_j73160472920346_4_alg».proof.Proof.Gen.Kernel.Frame
import proofs.«411606_j73160472920346_4_alg».proof.Proof.Gen.KernelIdeal
import proofs.«411606_j73160472920346_4_alg».proof.Proof.Gen.KernelIdeal.Skeleton
import proofs.«411606_j73160472920346_4_alg».proof.Proof.Gen.KernelIdeal.Launch
import proofs.«411606_j73160472920346_4_alg».proof.Proof.Gen.KernelIdeal.Points
import proofs.«411606_j73160472920346_4_alg».proof.Proof.Gen.KernelIdeal.Frame
import proofs.«411606_j73160472920346_4_alg».proof.Proof.Gen.ReferenceIdeal
import proofs.«411606_j73160472920346_4_alg».proof.Proof.Gen.Pre_finite_inputs
import proofs.«411606_j73160472920346_4_alg».proof.Proof.Gen.ReferenceIdeal.Run
import proofs.«411606_j73160472920346_4_alg».proof.Proof.Gen.ReferenceIdeal.Read
import proofs.«411606_j73160472920346_4_alg».proof.Proof.KMain
import proofs.«411606_j73160472920346_4_alg».proof.Proof.RefValue
import Idealize.ShloMosaic.Adequacy
import Idealize.ShloMosaic.Init

noncomputable section

namespace Cert.Proof

open Idealize.ShloMosaic Idealize.SL.Sem

/-- The kernel program as printed runs and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- Both programs end with the pooled array of the arguments. -/
theorem algebraic : Cert.algebraic_KernelIdeal_ReferenceIdeal := by
  intro m ρ m' ρ' _ hagree
  refine ⟨fun c => Cert.SegPool.pooled (Cert.KernelIdeal.Blocks.arr0 m c) (Cert.KernelIdeal.Blocks.arr1 m c)
    (Cert.KernelIdeal.Blocks.arr2 m c) (Cert.KernelIdeal.Blocks.arr3 m c) (Cert.KernelIdeal.Blocks.arr4 m c)
    (Cert.KernelIdeal.Blocks.arr5 m c), ?_, ?_⟩
  · exact (θ_run Cert.KernelIdeal.defs _ _).mono
      (fun _ h c => ⟨(h c).1.trans (Cert.KernelIdeal.RunValue.result_eq m c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, Cert.ReferenceIdeal.RefValue.ref_eq_pooled,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
